-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S4096x64 : Shape := ⟨2, ![4096, 64]⟩
abbrev S1x64 : Shape := ⟨2, ![1, 64]⟩
abbrev S2048x1024 : Shape := ⟨2, ![2048, 1024]⟩
abbrev S1024x64 : Shape := ⟨2, ![1024, 64]⟩
abbrev S2048x64 : Shape := ⟨2, ![2048, 64]⟩

abbrev nBuf : Space → Nat
  | .hbm => 7
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .bf16⟩
  | .hbm, ⟨5, _⟩ => ⟨S1x64, .f32⟩
  | .hbm, ⟨6, _⟩ => ⟨S16384x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x64, .bf16⟩
  | .local _ .vmem, ⟨4, _⟩ => ⟨S4096x64, .bf16⟩
  | .local _ .vmem, ⟨5, _⟩ => ⟨S2048x1024, .f32⟩
  | .local _ .vmem, ⟨6, _⟩ => ⟨S2048x1024, .f32⟩
  | .local _ .vmem, ⟨7, _⟩ => ⟨S1024x64, .bf16⟩
  | .local _ .vmem, ⟨8, _⟩ => ⟨S1024x64, .bf16⟩
  | .local _ .vmem, ⟨9, _⟩ => ⟨S1x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S4096x64_S4096x64_0_0 : (Rect.unit (s := S4096x64) ![0, 0] S4096x64.size inb_S4096x64_S4096x64_0_0).PackedRows (EltTy.packing .bf16)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S4096x64_S64x64_S4096x64_1_0_0_1_n_n_wf : DotDims.WF S4096x64 S64x64 S4096x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S16384x64.size a
  hwx0_2 : ∀ i : grid0.Coords, EltTy.bits .bf16 = 32 ∨ (Rect.block (s := S16384x64) S4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .bf16 = 32 ∨ (Rect.block (s := S16384x64) S1024x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.IdealProjRegion.lean ====
/-
  The projection region `h = x · w` of the program (its first pallas_call), at any float instance: the proof data of
  its pipeline and the body's obligation at every grid point.
  The grid has four points; point `t` reads rows 4096·t … 4096·t + 4095 of `x` (a block of 4096 × 64), the whole of
  `w` (64 × 64, fetched once), and writes rows 4096·t … of `h`. The body stores ONE value covering its output block:
  the product of the two loaded blocks accumulated into zero rows and narrowed; so after the body the output's staging
  buffer holds that value whatever it held before, and the two input buffers hold their blocks as before.
  Everything is stated at a PARAMETER `V`: the buffer contents the region finds when it is entered.
-/
import proofs.«114878_j5755256177264_1_alg».proof.Proof.Gen.KernelIdeal.Launch
import proofs.«114878_j5755256177264_1_alg».proof.Proof.Gen.KernelIdeal.Skeleton
import proofs.«114878_j5755256177264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` at a point: the staging buffer holds the block whether this point fetched it or an earlier one did. -/
theorem xrows_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights: fetched at the first point only, the same block index at every point. -/
theorem weights_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev rx : Rect S4096x64 := Rect.unit (s := S4096x64) ![0, 0] S4096x64.size inb_S4096x64_S4096x64_0_0
abbrev rw0 : Rect S64x64 := Rect.unit (s := S64x64) ![0, 0] S64x64.size inb_S64x64_S64x64_0_0

/-- What the body leaves in the output's staging buffer: its one store, of the product of the two loaded blocks. -/
def hblock (x0 : Vec F S4096x64 .f32) (x1 : Vec F S64x64 .f32) : Vec F S4096x64 .bf16 :=
  View.canon [⟨rx, k0_pay1 (View.ld x0 rx) (View.ld x1 rw0)⟩]

/-- The one store covers the whole buffer. -/
theorem hblock_cover (p0 : Vec F S4096x64 .bf16) (y : S4096x64.Idx) :
    ∃ pc ∈ ([⟨rx, p0⟩] : List (View.Piece (Elt F) S4096x64 .bf16)), y ∈ pc.1.set :=
  View.cover_of_tiled [⟨rx, p0⟩] S4096x64.size (by rfl) y

set_option maxHeartbeats 1000000 in
/-- The body on whole staging buffers: the inputs' at their contents and the output's at anything; it ends with the
    inputs' unchanged and the output's at `hblock` of them. -/
theorem proj_body_run (c : Dev nD) (E : Set ℕ) (i : grid0.Coords) (arg1 : Memref sig .tc .vmem S4096x64 .f32) (harg1 : arg1.IsWhole)
    (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (hblock x0 x1)) -∗ K ⟨⟩))
      ⊢ wp frame (wpE (defs₀ (F := F)) Variants.none c none) E (cc0_proj_kernel i arg1 harg1 arg2 harg2 arg3 harg3) K := by
  simp only [cc0_proj_kernel_eq_skeleton]; unfold cc0_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hblock_cover _)

/-- The pipeline's proof data on core `c`: the arrays as the region finds them; after the body at point `t` each input's
    buffer at its block and the output's at `hblock` of the input blocks; the region's invariant says nothing of the
    kernel's own (it has no scratch); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hblock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hblock (iblk0 V c 0 t) (iblk0 V c 1 t) := by dsimp only [dat0]

theorem before0_0 (c : Dev nD) (t : Fin cfg0.N) (d) : (dat0 V c).before 0 t d = iblk0 V c 0 t :=
  xrows_before_of V (dat0 V c) (A_eq0 V c 0) (after0_0 V c) t d
theorem before0_1 (c : Dev nD) (t : Fin cfg0.N) (d) : (dat0 V c).before 1 t d = iblk0 V c 1 t :=
  weights_before_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem proj_body_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (proj_body_run c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation0 (c : Dev nD) : BodyObligation (dat0 (F := F) V c) (defs₀ (F := F)) Variants.none () Set.univ := fun t => by
  rw [bigSep_W0, bigSep_W0]
  exact proj_body_at V c t

end

end Cert.KernelIdeal.Hand

end
-- ==== Proof.IdealAggRuns.lean ====
/-
  The aggregation region `out = adj · h + b` of the program (its second pallas_call), at any float instance: the
  kernel body run once per control case.
  The grid is 8 row blocks × 16 column tiles, the tile index fastest. At a point of tile `k` the body (re)sets its
  accumulator — a scratch buffer of 2048 × 64 it keeps from point to point — to zero rows if `k = 0`, adds to it the
  product of the 2048 × 1024 tile of `adj` with the 1024 × 64 tile of `h`, and, if `k = 15`, stores the accumulator
  plus the bias row into the output block. So a point is in one of three cases: the first tile (reset, add), a
  middle tile (add), the last tile (add, store). In each the body is run symbolically on whole buffers; what each
  buffer it stores into ends with is recorded as the list of stored pieces the run finds.
-/
import proofs.«114878_j5755256177264_1_alg».proof.Proof.Gen.KernelIdeal.Launch
import proofs.«114878_j5755256177264_1_alg».proof.Proof.Gen.KernelIdeal.Skeleton
import proofs.«114878_j5755256177264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two branch conditions, decided over the grid -/

/-- "This is the first column tile": the body's first branch, from the grid coordinates. -/
abbrev firstTile (i : grid1.Coords) : Prop := (Scalar.cmpi .ne (Scalar.extui (Scalar.cmpi .eq (BitVec.ofNat 32 (i 1).val) 0#32)) 0#32) = 1#1
theorem firstTile_iff : ∀ t : Fin cfg1.N, firstTile (grid1.coords t) ↔ t.val % 16 = 0 :=
  (by decide +kernel : ∀ t : Fin grid1.N, firstTile (grid1.coords t) ↔ t.val % 16 = 0)

/-- "This is the last column tile": the body's second branch. -/
abbrev lastTile (i : grid1.Coords) : Prop := k1_cond2 i = 1#1
theorem lastTile_iff : ∀ t : Fin cfg1.N, lastTile (grid1.coords t) ↔ t.val % 16 = 15 :=
  (by decide +kernel : ∀ t : Fin grid1.N, lastTile (grid1.coords t) ↔ t.val % 16 = 15)

/-! ## Where the output window is idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the body stores nothing into the output block, and the pipeline does not write it back. -/
theorem idle1_3_of : ∀ t : Fin cfg1.N, ¬lastTile (grid1.coords t) → cfg1.idle 3 (grid1.coords t) = true := by decide +kernel
theorem noFlush1_3_of : ∀ t : Fin cfg1.N, ¬lastTile (grid1.coords t) → (cfg1.win 3).flush t = false := by decide +kernel
theorem live1_3_of : ∀ t : Fin cfg1.N, lastTile (grid1.coords t) → cfg1.idle 3 (grid1.coords t) = false := by decide +kernel

/-! ## The buffers the body is called on -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S2048x64 .f32 := Memref.whole cc1_scratch0
abbrev accV : View sig .tc .vmem S2048x64 .f32 := accM.view
/-- One staging buffer of the output window, through which its contents are stated. -/
abbrev outV : View sig .tc .vmem S2048x64 .f32 := (Memref.whole cc1_stg3_0 : Memref sig .tc .vmem S2048x64 .f32).view

/-- What rides through the region beside the windows and the accumulator: the other region's staging buffers, each at
    some contents, and the generator register. -/
def restInv (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

/-- What the region's entry hands the kernel beside its windows is the accumulator at some contents and the rest; -/
theorem entry_split (c : Dev nD) :
    (Pipeline.ΦA spec1 c : sProp 𝕄) ⊢ iprop((∃ d, owns (c : Thread nD τ) accM fullShare d) ∗ restInv c) := by
  unfold Pipeline.ΦA restInv; rw [scopedRest1_eq]; simp only [accM, owns_whole]
  iintro ⟨⟨A, B, C, D, E, S⟩, P⟩
  isplitl [S]; · iexact S
  isplitr [P]
  · isplitl [A]; · iexact A
    isplitl [B]; · iexact B
    isplitl [C]; · iexact C
    isplitl [D]; · iexact D
    iexact E
  iexact P

/-- and the exit takes the same back. -/
theorem exit_join (c : Dev nD) :
    iprop((∃ d, owns (c : Thread nD τ) accM fullShare d) ∗ restInv c) ⊢ (Pipeline.ΦA spec1 c : sProp 𝕄) := by
  unfold Pipeline.ΦA restInv; rw [scopedRest1_eq]; simp only [accM, owns_whole]
  iintro ⟨S, ⟨A, B, C, D, E⟩, P⟩
  isplitr [P]
  · isplitl [A]; · iexact A
    isplitl [B]; · iexact B
    isplitl [C]; · iexact C
    isplitl [D]; · iexact D
    isplitl [E]; · iexact E
    iexact S
  iexact P

/-! ## The body, case by case -/

set_option maxHeartbeats 1000000 in
/-- FIRST TILE: the accumulator arrives at anything, is reset and added to; the output block is left untouched. -/
noncomputable def aggRun_first (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) :
    { LS : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, fun xi3 E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE TILE: the accumulator arrives at what the tile before left, and is added to. -/
noncomputable def aggRun_mid (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) :
    { LS : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, fun xi3 E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- THE LAST TILE: the accumulator is added to, then read back with the bias into the output block. -/
noncomputable def aggRun_last (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, ?_, fun E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.IdealAggRegion.lean ====
/-
  The aggregation region `out = adj · h + b`, at any float instance: what the accumulator and the output block hold after
  each grid point, the proof data of the pipeline, and the body's obligation at every point.
  The accumulator is carried from point to point: after point `n` it holds what that point's case leaves in it — over
  what point `n − 1` left, unless `n` is a first tile, which resets it. The region's invariant before point `n` is
  therefore "the accumulator holds what point `n − 1` left" (before the very first point: anything). The output block is
  stored only on a last tile; elsewhere its buffer is handed back as found and is not written back.
  Everything is stated at a PARAMETER `V`: the buffer contents the region finds when it is entered.
-/
import proofs.«114878_j5755256177264_1_alg».proof.Proof.IdealAggRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether this point fetched it or an earlier one did:
    the adjacency tile, -/
theorem adj_before_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the tile of the projected features, -/
theorem h_before_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the bias row (fetched once). -/
theorem bias_before_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The pieces a case stores into the accumulator tile it: one whole-buffer store last. -/
theorem acc_cover_first (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) (y : S2048x64.Idx) :
    ∃ pc ∈ (aggRun_first c i arg2 harg2 arg3 harg3 arg4 harg4 arg5 harg5 arg6 harg6 hc0 hc1 x0 x1 x2).1, y ∈ pc.1.set :=
  View.cover_of_tiledL (aggRun_first c i arg2 harg2 arg3 harg3 arg4 harg4 arg5 harg5 arg6 harg6 hc0 hc1 x0 x1 x2).1 S2048x64.size (by sl_kernel_rfl) y
def acc_first (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) : Vec F S2048x64 .f32 :=
  accV.read (Elt F) (accV.writes (Elt F) accV.junk (aggRun_first c i arg2 harg2 arg3 harg3 arg4 harg4 arg5 harg5 arg6 harg6 hc0 hc1 x0 x1 x2).1)

theorem acc_cover_mid (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) (y : S2048x64.Idx) :
    ∃ pc ∈ (aggRun_mid c i arg2 harg2 arg3 harg3 arg4 harg4 arg5 harg5 arg6 harg6 hc0 hc1 x0 x1 x2 xs).1, y ∈ pc.1.set :=
  View.cover_of_tiledL (aggRun_mid c i arg2 harg2 arg3 harg3 arg4 harg4 arg5 harg5 arg6 harg6 hc0 hc1 x0 x1 x2 xs).1 S2048x64.size (by sl_kernel_rfl) y
def acc_mid (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) : Vec F S2048x64 .f32 :=
  accV.read (Elt F) (accV.writes (Elt F) accV.junk (aggRun_mid c i arg2 harg2 arg3 harg3 arg4 harg4 arg5 harg5 arg6 harg6 hc0 hc1 x0 x1 x2 xs).1)

theorem acc_cover_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) (y : S2048x64.Idx) :
    ∃ pc ∈ (aggRun_last c i arg2 harg2 arg3 harg3 arg4 harg4 arg5 harg5 arg6 harg6 hc0 hc1 x0 x1 x2 xs).2.1, y ∈ pc.1.set :=
  View.cover_of_tiledL (aggRun_last c i arg2 harg2 arg3 harg3 arg4 harg4 arg5 harg5 arg6 harg6 hc0 hc1 x0 x1 x2 xs).2.1 S2048x64.size (by sl_kernel_rfl) y
def acc_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) : Vec F S2048x64 .f32 :=
  accV.read (Elt F) (accV.writes (Elt F) accV.junk (aggRun_last c i arg2 harg2 arg3 harg3 arg4 harg4 arg5 harg5 arg6 harg6 hc0 hc1 x0 x1 x2 xs).2.1)
/-- On a last tile the one store into the output block covers it. -/
theorem out_cover_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) (y : S2048x64.Idx) :
    ∃ pc ∈ (aggRun_last c i arg2 harg2 arg3 harg3 arg4 harg4 arg5 harg5 arg6 harg6 hc0 hc1 x0 x1 x2 xs).1, y ∈ pc.1.set :=
  View.cover_of_tiledL (aggRun_last c i arg2 harg2 arg3 harg3 arg4 harg4 arg5 harg5 arg6 harg6 hc0 hc1 x0 x1 x2 xs).1 S2048x64.size (by sl_kernel_rfl) y
def out_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) : Vec F S2048x64 .f32 :=
  outV.read (Elt F) (outV.writes (Elt F) outV.junk (aggRun_last c i arg2 harg2 arg3 harg3 arg4 harg4 arg5 harg5 arg6 harg6 hc0 hc1 x0 x1 x2 xs).1)

/-! ## Point by point -/

/-- What the output block's buffer (first component; a placeholder off the last tiles, where nothing reads it) and the
    accumulator (second component) hold after the body at position `n`: the case the tile index selects, run on the
    point's buffers and input blocks, the accumulator carried from position `n − 1` except on a first tile. -/
def aggAt (c : Dev nD) : (n : ℕ) → n < cfg1.N → Vec F S2048x64 .f32 × Vec F S2048x64 .f32
  | 0, hn => (acc_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstTile_iff ⟨0, hn⟩).mpr (Nat.zero_mod _)) (fun h => absurd ((lastTile_iff ⟨0, hn⟩).mp h) (show ¬(0 : ℕ) % 16 = 15 by decide)) (iblk1 V c 0 ⟨0, hn⟩) (iblk1 V c 1 ⟨0, hn⟩) (iblk1 V c 2 ⟨0, hn⟩),
      acc_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstTile_iff ⟨0, hn⟩).mpr (Nat.zero_mod _)) (fun h => absurd ((lastTile_iff ⟨0, hn⟩).mp h) (show ¬(0 : ℕ) % 16 = 15 by decide)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (acc_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstTile_iff ⟨n + 1, hn⟩).mpr h0) (fun h => h1 ((lastTile_iff ⟨n + 1, hn⟩).mp h)) (iblk1 V c 0 ⟨n + 1, hn⟩) (iblk1 V c 1 ⟨n + 1, hn⟩) (iblk1 V c 2 ⟨n + 1, hn⟩),
          acc_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstTile_iff ⟨n + 1, hn⟩).mpr h0) (fun h => h1 ((lastTile_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) ((lastTile_iff ⟨n + 1, hn⟩).mpr h1) (iblk1 V c 0 ⟨n + 1, hn⟩) (iblk1 V c 1 ⟨n + 1, hn⟩) (iblk1 V c 2 ⟨n + 1, hn⟩) (aggAt c n (Nat.lt_of_succ_lt hn)).2,
          acc_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) ((lastTile_iff ⟨n + 1, hn⟩).mpr h1) (iblk1 V c 0 ⟨n + 1, hn⟩) (iblk1 V c 1 ⟨n + 1, hn⟩) (iblk1 V c 2 ⟨n + 1, hn⟩) (aggAt c n (Nat.lt_of_succ_lt hn)).2)
      else
        (acc_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) (fun h => h1 ((lastTile_iff ⟨n + 1, hn⟩).mp h)) (iblk1 V c 0 ⟨n + 1, hn⟩) (iblk1 V c 1 ⟨n + 1, hn⟩) (iblk1 V c 2 ⟨n + 1, hn⟩) (aggAt c n (Nat.lt_of_succ_lt hn)).2,
          acc_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) (fun h => h1 ((lastTile_iff ⟨n + 1, hn⟩).mp h)) (iblk1 V c 0 ⟨n + 1, hn⟩) (iblk1 V c 1 ⟨n + 1, hn⟩) (iblk1 V c 2 ⟨n + 1, hn⟩) (aggAt c n (Nat.lt_of_succ_lt hn)).2)

/-- `aggAt` at a first tile. -/
theorem aggAt_first (c : Dev nD) (t : Fin cfg1.N) (h0 : t.val % 16 = 0) (h1 : ¬t.val % 16 = 15) :
    aggAt V c t.val t.isLt = (acc_first c (grid1.coords t) (ms1_0 t) (hs1_0 t) (ms1_1 t) (hs1_1 t) (ms1_2 t) (hs1_2 t) (ms1_3 t) (hs1_3 t) accM (Memref.isWhole_whole _) ((firstTile_iff t).mpr h0) (fun h => h1 ((lastTile_iff t).mp h)) (iblk1 V c 0 t) (iblk1 V c 1 t) (iblk1 V c 2 t), acc_first c (grid1.coords t) (ms1_0 t) (hs1_0 t) (ms1_1 t) (hs1_1 t) (ms1_2 t) (hs1_2 t) (ms1_3 t) (hs1_3 t) accM (Memref.isWhole_whole _) ((firstTile_iff t).mpr h0) (fun h => h1 ((lastTile_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `aggAt` at a middle tile: over what the point before left. -/
theorem aggAt_mid (c : Dev nD) (t : Fin cfg1.N) (h0 : ¬t.val % 16 = 0) (h1 : ¬t.val % 16 = 15) :
    aggAt V c t.val t.isLt = (acc_mid c (grid1.coords t) (ms1_0 t) (hs1_0 t) (ms1_1 t) (hs1_1 t) (ms1_2 t) (hs1_2 t) (ms1_3 t) (hs1_3 t) accM (Memref.isWhole_whole _) (fun h => h0 ((firstTile_iff t).mp h)) (fun h => h1 ((lastTile_iff t).mp h)) (iblk1 V c 0 t) (iblk1 V c 1 t) (iblk1 V c 2 t) (aggAt V c (t.val - 1) (Nat.lt_of_le_of_lt (Nat.sub_le _ _) t.isLt)).2, acc_mid c (grid1.coords t) (ms1_0 t) (hs1_0 t) (ms1_1 t) (hs1_1 t) (ms1_2 t) (hs1_2 t) (ms1_3 t) (hs1_3 t) accM (Memref.isWhole_whole _) (fun h => h0 ((firstTile_iff t).mp h)) (fun h => h1 ((lastTile_iff t).mp h)) (iblk1 V c 0 t) (iblk1 V c 1 t) (iblk1 V c 2 t) (aggAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `aggAt` at a last tile: over what the point before left; the output block beside it. -/
theorem aggAt_last (c : Dev nD) (t : Fin cfg1.N) (h0 : ¬t.val % 16 = 0) (h1 : t.val % 16 = 15) :
    aggAt V c t.val t.isLt = (out_last c (grid1.coords t) (ms1_0 t) (hs1_0 t) (ms1_1 t) (hs1_1 t) (ms1_2 t) (hs1_2 t) (ms1_3 t) (hs1_3 t) accM (Memref.isWhole_whole _) (fun h => h0 ((firstTile_iff t).mp h)) ((lastTile_iff t).mpr h1) (iblk1 V c 0 t) (iblk1 V c 1 t) (iblk1 V c 2 t) (aggAt V c (t.val - 1) (Nat.lt_of_le_of_lt (Nat.sub_le _ _) t.isLt)).2,
      acc_last c (grid1.coords t) (ms1_0 t) (hs1_0 t) (ms1_1 t) (hs1_1 t) (ms1_2 t) (hs1_2 t) (ms1_3 t) (hs1_3 t) accM (Memref.isWhole_whole _) (fun h => h0 ((firstTile_iff t).mp h)) ((lastTile_iff t).mpr h1) (iblk1 V c 0 t) (iblk1 V c 1 t) (iblk1 V c 2 t) (aggAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the entry hands over (the accumulator at
    anything); afterwards the accumulator at what the point before left; beside it, throughout, what the kernel never
    touches. -/
def accInv (c : Dev nD) : (n : ℕ) → n ≤ cfg1.N → sProp 𝕄
  | 0, _ => iprop((∃ d, owns (c : Thread nD τ) accM fullShare d) ∗ restInv c)
  | n + 1, hn => iprop(iprop(owns (c : Thread nD τ) accM fullShare ((aggAt V c n hn).2)) ∗ restInv c)

theorem accInv_zero (c : Dev nD) (n : ℕ) (h : n ≤ cfg1.N) (hz : n = 0) : accInv V c n h = iprop((∃ d, owns (c : Thread nD τ) accM fullShare d) ∗ restInv c) := by
  subst hz; rfl
theorem accInv_succ (c : Dev nD) (n : ℕ) (hn : n < cfg1.N) :
    accInv V c (n + 1) hn = iprop(iprop(owns (c : Thread nD τ) accM fullShare ((aggAt V c n hn).2)) ∗ restInv c) := rfl
theorem accInv_pos (c : Dev nD) (n : ℕ) (h : n ≤ cfg1.N) (hz : n ≠ 0) :
    accInv V c n h = iprop(iprop(owns (c : Thread nD τ) accM fullShare ((aggAt V c (n - 1) (by omega)).2)) ∗ restInv c) := by
  cases n with
  | zero => exact absurd rfl hz
  | succ n => rfl

/-! ## The pipeline's proof data -/

/-- The proof data on core `c`: the arrays as the region finds them; after the body at point `t` each input's buffer at
    its block and the output's at `aggAt`'s first component; the invariant `accInv`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (aggAt V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem accInv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (aggAt V c t.val t.isLt).1 := by dsimp only [dat1]

theorem before1_0 (c : Dev nD) (t : Fin cfg1.N) (d) : (dat1 V c).before 0 t d = iblk1 V c 0 t :=
  adj_before_of V (dat1 V c) (A_eq1 V c 0) (after1_0 V c) t d
theorem before1_1 (c : Dev nD) (t : Fin cfg1.N) (d) : (dat1 V c).before 1 t d = iblk1 V c 1 t :=
  h_before_of V (dat1 V c) (A_eq1 V c 1) (after1_1 V c) t d
theorem before1_2 (c : Dev nD) (t : Fin cfg1.N) (d) : (dat1 V c).before 2 t d = iblk1 V c 2 t :=
  bias_before_of V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the tile index says which case the point is in; the
    invariant hands the body the accumulator at what the point before left (at anything before the first point) and takes
    it back at this point's contents; off the last tiles the output block's buffer goes back as it came. -/
theorem agg_body_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = accInv V c (t.val + 1) t.isLt from rfl, accInv_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 16 = 0
  · have h1 : ¬t.val % 16 = 15 := by omega
    rw [Dat.leavesExact_idle (dat1 V c) 3 t (idle1_3_of t (fun h => h1 ((lastTile_iff t).mp h))) (noFlush1_3_of t (fun h => h1 ((lastTile_iff t).mp h)))]
    rw [aggAt_first V c t h0 h1]
    unfold acc_first; (try dsimp only)
    by_cases hz : t.val = 0
    · rw [accInv_castSucc V c t, accInv_zero V c _ _ hz]
      iintro ⟨⟨HS, Hg⟩, Ho, ⟨%d0, H0⟩, ⟨%d1, H1⟩, ⟨%d2, H2⟩, ⟨%d3, H3⟩⟩
      iapply ((aggRun_first c (grid1.coords t) _ _ _ _ _ _ _ _ _ _ ((firstTile_iff t).mpr h0) (fun h => h1 ((lastTile_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_first c (grid1.coords t) _ _ _ _ _ _ _ _ _ _ ((firstTile_iff t).mpr h0) (fun h => h1 ((lastTile_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [live1_3_of t ((lastTile_iff t).mpr h1)], after1_3]
      rw [aggAt_last V c t h0 h1]
      unfold out_last acc_last; (try dsimp only)
      rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_last c (grid1.coords t) _ _ _ _ _ _ _ _ _ _ (fun h => h0 ((firstTile_iff t).mp h)) ((lastTile_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (acc_cover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out_cover_last c _ _ _ _ _ _ _ _ _ _ _ _ _ _ _ _ _)
    · rw [Dat.leavesExact_idle (dat1 V c) 3 t (idle1_3_of t (fun h => h1 ((lastTile_iff t).mp h))) (noFlush1_3_of t (fun h => h1 ((lastTile_iff t).mp h)))]
      rw [aggAt_mid V c t h0 h1]
      unfold acc_mid; (try dsimp only)
      rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_mid c (grid1.coords t) _ _ _ _ _ _ _ _ _ _ (fun h => h0 ((firstTile_iff t).mp h)) (fun h => h1 ((lastTile_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_mid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body's obligation, at every point. -/
theorem body_obligation1 (c : Dev nD) : BodyObligation (dat1 (F := F) V c) (defs₀ (F := F)) Variants.none () Set.univ := fun t => by
  rw [bigSep_W1, bigSep_W1]
  exact agg_body_at V c t

/-- What the entry hands the kernel is the invariant before the first point. -/
theorem agg_in (c : Dev nD) : Pipeline.ΦA spec1 c ⊢ (dat1 V c).Φ 0 := by
  rw [show (dat1 V c).Φ 0 = accInv V c 0 (Nat.zero_le _) from rfl, accInv_zero V c 0 _ rfl]
  exact entry_split c

/-- After the last point the invariant gives it back: what the accumulator holds is forgotten. -/
theorem agg_out (c : Dev nD) : (dat1 V c).Φ (Fin.last cfg1.N) ⊢ Pipeline.ΦA spec1 c := by
  rw [show (dat1 V c).Φ (Fin.last cfg1.N) = accInv V c (Fin.last cfg1.N).val (Nat.le_of_lt_succ (Fin.last cfg1.N).isLt) from rfl,
    accInv_pos V c _ _ (by rw [Fin.val_last]; have : cfg1.N = 128 := N_1; omega)]
  refine .trans ?_ (exit_join c)
  iintro ⟨HS, Hg⟩
  isplitl [HS]
  · iexists _; iexact HS
  iexact Hg

end

end Cert.KernelIdeal.Hand

end
-- ==== Proof.IdealRun.lean ====
/-
  THE RUN of the whole program, at any float instance: @main is the projection region, one host line (the bias
  reshaped to a row), the aggregation region. Between two items every unscoped buffer of the core is held at contents
  named by a fold from the launch memory: a region leaves its arrays at what its write-backs fold to and every other
  buffer as it found it; the host line writes its one result. Each region enters from the fold before it and leaves at
  the fold after it, its arrays split out of the unscoped buffers and put back, the generator register riding along,
  nothing owed to any other core. The launch then gives: every weakly fair execution terminates, and every final
  memory holds every unscoped buffer at the last fold — whence the arguments unchanged, and the result by name.
-/
import proofs.«114878_j5755256177264_1_alg».proof.Proof.IdealProjRegion
import proofs.«114878_j5755256177264_1_alg».proof.Proof.IdealAggRegion
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the projection region finds. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host line (the bias as a row): what the aggregation region finds. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the aggregation region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (dat1 (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host line writes only its own result. -/
theorem W2_of_not_written (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_not_written m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_not_written m ρ c main_arg3 (by decide)
    _ = W0 m ρ c (Proc.devRef .tc main_arg3) := W1_of_ne m ρ c main_arg3 (by decide)
    _ = m ((c : Thread nD τ).loc main_arg3) := rfl

/-- The result buffer ends at what the aggregation region's write-backs fold to. -/
theorem W3_main_v2 (c : Dev nD) : W3 m ρ c (Proc.devRef .tc main_v2) = (dat1 (V2 m ρ) c).arrAt 3 cfg1.N :=
  W3_arr m ρ c 3

/-! ## What the aggregation region finds in its arrays -/

/-- The adjacency: as launched. -/
theorem V2_main_arg1 (c : Dev nD) : V2 m ρ c main_arg1 = m ((c : Thread nD τ).loc main_arg1) :=
  (W2_of_not_written m ρ c main_arg1 (by decide)).trans ((W1_of_ne m ρ c main_arg1 (by decide)).trans rfl)
/-- The projected features: what the projection region's write-backs fold to. -/
theorem V2_main_v0 (c : Dev nD) : V2 m ρ c main_v0 = (dat0 (V0 m ρ) c).arrAt 2 cfg0.N :=
  (W2_of_not_written m ρ c main_v0 (by decide)).trans (W1_arr m ρ c 2)
/-- The bias row: the launch's bias vector, reshaped. -/
theorem V2_main_v1 (c : Dev nD) : V2 m ρ c main_v1 = shapeCast S1x64 (m ((c : Thread nD τ).loc main_arg3)) shapeCasts_S64_S1x64 := by
  have e : W1 m ρ c (Proc.devRef .tc main_arg3) = m ((c : Thread nD τ).loc main_arg3) := (W1_of_ne m ρ c main_arg3 (by decide)).trans rfl
  rw [← e]
  show StableHlo.after hostOps1 (W1 m ρ c) (Proc.devRef .tc main_v1) = _
  after_results
  rfl
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- THE PROJECTION REGION over the thread state: entered at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION REGION over the thread state: entered at `W2`, left at `W3`; what the entry hands the kernel beside
    its windows becomes the accumulator's invariant before the first point, and after the last point goes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (agg_in (V2 m ρ) c)
    unfold Pipeline.ΦA
    iintro ⟨Hp, -, Hr⟩
    isplitl [Hr]; · iexact Hr
    iexact Hp
  hout c := by
    rw [Pipeline.ownSems0_none]
    refine (agg_out (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- THE RUN WITH THE RESULT NAMED: the result buffer ends at what the aggregation region's write-backs fold to. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.BitsProjRegion.lean ====
/-
  The projection region `h = x · w` of the program (its first pallas_call), at any float instance: the proof data of
  its pipeline and the body's obligation at every grid point.
  The grid has four points; point `t` reads rows 4096·t … 4096·t + 4095 of `x` (a block of 4096 × 64), the whole of
  `w` (64 × 64, fetched once), and writes rows 4096·t … of `h`. The body stores ONE value covering its output block:
  the product of the two loaded blocks accumulated into zero rows and narrowed; so after the body the output's staging
  buffer holds that value whatever it held before, and the two input buffers hold their blocks as before.
  Everything is stated at a PARAMETER `V`: the buffer contents the region finds when it is entered.
-/
import proofs.«114878_j5755256177264_1_alg».proof.Proof.Gen.Kernel.Launch
import proofs.«114878_j5755256177264_1_alg».proof.Proof.Gen.Kernel.Skeleton
import proofs.«114878_j5755256177264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` at a point: the staging buffer holds the block whether this point fetched it or an earlier one did. -/
theorem xrows_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights: fetched at the first point only, the same block index at every point. -/
theorem weights_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev rx : Rect S4096x64 := Rect.unit (s := S4096x64) ![0, 0] S4096x64.size inb_S4096x64_S4096x64_0_0
abbrev rw0 : Rect S64x64 := Rect.unit (s := S64x64) ![0, 0] S64x64.size inb_S64x64_S64x64_0_0

/-- What the body leaves in the output's staging buffer: its one store, of the product of the two loaded blocks. -/
def hblock (x0 : Vec F S4096x64 .f32) (x1 : Vec F S64x64 .f32) : Vec F S4096x64 .bf16 :=
  View.canon [⟨rx, k0_pay1 (View.ld x0 rx) (View.ld x1 rw0)⟩]

/-- The one store covers the whole buffer. -/
theorem hblock_cover (p0 : Vec F S4096x64 .bf16) (y : S4096x64.Idx) :
    ∃ pc ∈ ([⟨rx, p0⟩] : List (View.Piece (Elt F) S4096x64 .bf16)), y ∈ pc.1.set :=
  View.cover_of_tiled [⟨rx, p0⟩] S4096x64.size (by rfl) y

set_option maxHeartbeats 1000000 in
/-- The body on whole staging buffers: the inputs' at their contents and the output's at anything; it ends with the
    inputs' unchanged and the output's at `hblock` of them. -/
theorem proj_body_run (c : Dev nD) (E : Set ℕ) (i : grid0.Coords) (arg1 : Memref sig .tc .vmem S4096x64 .f32) (harg1 : arg1.IsWhole)
    (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (hblock x0 x1)) -∗ K ⟨⟩))
      ⊢ wp frame (wpE (defs₀ (F := F)) Variants.none c none) E (cc0_proj_kernel i arg1 harg1 arg2 harg2 arg3 harg3) K := by
  simp only [cc0_proj_kernel_eq_skeleton]; unfold cc0_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hblock_cover _)

/-- The pipeline's proof data on core `c`: the arrays as the region finds them; after the body at point `t` each input's
    buffer at its block and the output's at `hblock` of the input blocks; the region's invariant says nothing of the
    kernel's own (it has no scratch); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hblock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hblock (iblk0 V c 0 t) (iblk0 V c 1 t) := by dsimp only [dat0]

theorem before0_0 (c : Dev nD) (t : Fin cfg0.N) (d) : (dat0 V c).before 0 t d = iblk0 V c 0 t :=
  xrows_before_of V (dat0 V c) (A_eq0 V c 0) (after0_0 V c) t d
theorem before0_1 (c : Dev nD) (t : Fin cfg0.N) (d) : (dat0 V c).before 1 t d = iblk0 V c 1 t :=
  weights_before_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem proj_body_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (proj_body_run c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation0 (c : Dev nD) : BodyObligation (dat0 (F := F) V c) (defs₀ (F := F)) Variants.none () Set.univ := fun t => by
  rw [bigSep_W0, bigSep_W0]
  exact proj_body_at V c t

end

end Cert.Kernel.Hand

end
-- ==== Proof.BitsAggRuns.lean ====
/-
  The aggregation region `out = adj · h + b` of the program (its second pallas_call), at any float instance: the
  kernel body run once per control case.
  The grid is 8 row blocks × 16 column tiles, the tile index fastest. At a point of tile `k` the body (re)sets its
  accumulator — a scratch buffer of 2048 × 64 it keeps from point to point — to zero rows if `k = 0`, adds to it the
  product of the 2048 × 1024 tile of `adj` with the 1024 × 64 tile of `h`, and, if `k = 15`, stores the accumulator
  plus the bias row into the output block. So a point is in one of three cases: the first tile (reset, add), a
  middle tile (add), the last tile (add, store). In each the body is run symbolically on whole buffers; what each
  buffer it stores into ends with is recorded as the list of stored pieces the run finds.
-/
import proofs.«114878_j5755256177264_1_alg».proof.Proof.Gen.Kernel.Launch
import proofs.«114878_j5755256177264_1_alg».proof.Proof.Gen.Kernel.Skeleton
import proofs.«114878_j5755256177264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two branch conditions, decided over the grid -/

/-- "This is the first column tile": the body's first branch, from the grid coordinates. -/
abbrev firstTile (i : grid1.Coords) : Prop := (Scalar.cmpi .ne (Scalar.extui (Scalar.cmpi .eq (BitVec.ofNat 32 (i 1).val) 0#32)) 0#32) = 1#1
theorem firstTile_iff : ∀ t : Fin cfg1.N, firstTile (grid1.coords t) ↔ t.val % 16 = 0 :=
  (by decide +kernel : ∀ t : Fin grid1.N, firstTile (grid1.coords t) ↔ t.val % 16 = 0)

/-- "This is the last column tile": the body's second branch. -/
abbrev lastTile (i : grid1.Coords) : Prop := k1_cond2 i = 1#1
theorem lastTile_iff : ∀ t : Fin cfg1.N, lastTile (grid1.coords t) ↔ t.val % 16 = 15 :=
  (by decide +kernel : ∀ t : Fin grid1.N, lastTile (grid1.coords t) ↔ t.val % 16 = 15)

/-! ## Where the output window is idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the body stores nothing into the output block, and the pipeline does not write it back. -/
theorem idle1_3_of : ∀ t : Fin cfg1.N, ¬lastTile (grid1.coords t) → cfg1.idle 3 (grid1.coords t) = true := by decide +kernel
theorem noFlush1_3_of : ∀ t : Fin cfg1.N, ¬lastTile (grid1.coords t) → (cfg1.win 3).flush t = false := by decide +kernel
theorem live1_3_of : ∀ t : Fin cfg1.N, lastTile (grid1.coords t) → cfg1.idle 3 (grid1.coords t) = false := by decide +kernel

/-! ## The buffers the body is called on -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S2048x64 .f32 := Memref.whole cc1_scratch0
abbrev accV : View sig .tc .vmem S2048x64 .f32 := accM.view
/-- One staging buffer of the output window, through which its contents are stated. -/
abbrev outV : View sig .tc .vmem S2048x64 .f32 := (Memref.whole cc1_stg3_0 : Memref sig .tc .vmem S2048x64 .f32).view

/-- What rides through the region beside the windows and the accumulator: the other region's staging buffers, each at
    some contents, and the generator register. -/
def restInv (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

/-- What the region's entry hands the kernel beside its windows is the accumulator at some contents and the rest; -/
theorem entry_split (c : Dev nD) :
    (Pipeline.ΦA spec1 c : sProp 𝕄) ⊢ iprop((∃ d, owns (c : Thread nD τ) accM fullShare d) ∗ restInv c) := by
  unfold Pipeline.ΦA restInv; rw [scopedRest1_eq]; simp only [accM, owns_whole]
  iintro ⟨⟨A, B, C, D, E, S⟩, P⟩
  isplitl [S]; · iexact S
  isplitr [P]
  · isplitl [A]; · iexact A
    isplitl [B]; · iexact B
    isplitl [C]; · iexact C
    isplitl [D]; · iexact D
    iexact E
  iexact P

/-- and the exit takes the same back. -/
theorem exit_join (c : Dev nD) :
    iprop((∃ d, owns (c : Thread nD τ) accM fullShare d) ∗ restInv c) ⊢ (Pipeline.ΦA spec1 c : sProp 𝕄) := by
  unfold Pipeline.ΦA restInv; rw [scopedRest1_eq]; simp only [accM, owns_whole]
  iintro ⟨S, ⟨A, B, C, D, E⟩, P⟩
  isplitr [P]
  · isplitl [A]; · iexact A
    isplitl [B]; · iexact B
    isplitl [C]; · iexact C
    isplitl [D]; · iexact D
    isplitl [E]; · iexact E
    iexact S
  iexact P

/-! ## The body, case by case -/

set_option maxHeartbeats 1000000 in
/-- FIRST TILE: the accumulator arrives at anything, is reset and added to; the output block is left untouched. -/
noncomputable def aggRun_first (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) :
    { LS : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, fun xi3 E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE TILE: the accumulator arrives at what the tile before left, and is added to. -/
noncomputable def aggRun_mid (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) :
    { LS : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, fun xi3 E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- THE LAST TILE: the accumulator is added to, then read back with the bias into the output block. -/
noncomputable def aggRun_last (c : Dev nD) (i : grid1.Coords) (arg2 : Memref sig .tc .vmem S2048x1024 .f32) (harg2 : arg2.IsWhole)
    (arg3 : Memref sig .tc .vmem S1024x64 .bf16) (harg3 : arg3.IsWhole) (arg4 : Memref sig .tc .vmem S1x64 .f32) (harg4 : arg4.IsWhole)
    (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1_gcn_kernel i arg2 harg2 arg3 harg3 arg4 harg4 arg5 harg5 arg6 harg6) K } := by
  refine ⟨?_, ?_, fun E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.BitsAggRegion.lean ====
/-
  The aggregation region `out = adj · h + b`, at any float instance: what the accumulator and the output block hold after
  each grid point, the proof data of the pipeline, and the body's obligation at every point.
  The accumulator is carried from point to point: after point `n` it holds what that point's case leaves in it — over
  what point `n − 1` left, unless `n` is a first tile, which resets it. The region's invariant before point `n` is
  therefore "the accumulator holds what point `n − 1` left" (before the very first point: anything). The output block is
  stored only on a last tile; elsewhere its buffer is handed back as found and is not written back.
  Everything is stated at a PARAMETER `V`: the buffer contents the region finds when it is entered.
-/
import proofs.«114878_j5755256177264_1_alg».proof.Proof.BitsAggRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether this point fetched it or an earlier one did:
    the adjacency tile, -/
theorem adj_before_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the tile of the projected features, -/
theorem h_before_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the bias row (fetched once). -/
theorem bias_before_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The pieces a case stores into the accumulator tile it: one whole-buffer store last. -/
theorem acc_cover_first (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) (y : S2048x64.Idx) :
    ∃ pc ∈ (aggRun_first c i arg2 harg2 arg3 harg3 arg4 harg4 arg5 harg5 arg6 harg6 hc0 hc1 x0 x1 x2).1, y ∈ pc.1.set :=
  View.cover_of_tiledL (aggRun_first c i arg2 harg2 arg3 harg3 arg4 harg4 arg5 harg5 arg6 harg6 hc0 hc1 x0 x1 x2).1 S2048x64.size (by sl_kernel_rfl) y
def acc_first (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : firstTile i) (hc1 : ¬lastTile i) (x0 : Vec F S2048x1024 .f32) (x1 : Vec F S1024x64 .bf16) (x2 : Vec F S1x64 .f32) : Vec F S2048x64 .f32 :=
  accV.read (Elt F) (accV.writes (Elt F) accV.junk (aggRun_first c i arg2 harg2 arg3 harg3 arg4 harg4 arg5 harg5 arg6 harg6 hc0 hc1 x0 x1 x2).1)

theorem acc_cover_mid (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) (y : S2048x64.Idx) :
    ∃ pc ∈ (aggRun_mid c i arg2 harg2 arg3 harg3 arg4 harg4 arg5 harg5 arg6 harg6 hc0 hc1 x0 x1 x2 xs).1, y ∈ pc.1.set :=
  View.cover_of_tiledL (aggRun_mid c i arg2 harg2 arg3 harg3 arg4 harg4 arg5 harg5 arg6 harg6 hc0 hc1 x0 x1 x2 xs).1 S2048x64.size (by sl_kernel_rfl) y
def acc_mid (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : ¬lastTile i) (x0 : Vec F S2048x1024 .f32) (x1 : Vec F S1024x64 .bf16) (x2 : Vec F S1x64 .f32) (xs : Vec F S2048x64 .f32) : Vec F S2048x64 .f32 :=
  accV.read (Elt F) (accV.writes (Elt F) accV.junk (aggRun_mid c i arg2 harg2 arg3 harg3 arg4 harg4 arg5 harg5 arg6 harg6 hc0 hc1 x0 x1 x2 xs).1)

theorem acc_cover_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) (y : S2048x64.Idx) :
    ∃ pc ∈ (aggRun_last c i arg2 harg2 arg3 harg3 arg4 harg4 arg5 harg5 arg6 harg6 hc0 hc1 x0 x1 x2 xs).2.1, y ∈ pc.1.set :=
  View.cover_of_tiledL (aggRun_last c i arg2 harg2 arg3 harg3 arg4 harg4 arg5 harg5 arg6 harg6 hc0 hc1 x0 x1 x2 xs).2.1 S2048x64.size (by sl_kernel_rfl) y
def acc_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) : Vec F S2048x64 .f32 :=
  accV.read (Elt F) (accV.writes (Elt F) accV.junk (aggRun_last c i arg2 harg2 arg3 harg3 arg4 harg4 arg5 harg5 arg6 harg6 hc0 hc1 x0 x1 x2 xs).2.1)
/-- On a last tile the one store into the output block covers it. -/
theorem out_cover_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) (y : S2048x64.Idx) :
    ∃ pc ∈ (aggRun_last c i arg2 harg2 arg3 harg3 arg4 harg4 arg5 harg5 arg6 harg6 hc0 hc1 x0 x1 x2 xs).1, y ∈ pc.1.set :=
  View.cover_of_tiledL (aggRun_last c i arg2 harg2 arg3 harg3 arg4 harg4 arg5 harg5 arg6 harg6 hc0 hc1 x0 x1 x2 xs).1 S2048x64.size (by sl_kernel_rfl) y
def out_last (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)
    (hc0 : ¬firstTile i) (hc1 : lastTile i) (x0 : Vec F S2048x1024 .f32) (x1 : Vec F S1024x64 .bf16) (x2 : Vec F S1x64 .f32) (xs : Vec F S2048x64 .f32) : Vec F S2048x64 .f32 :=
  outV.read (Elt F) (outV.writes (Elt F) outV.junk (aggRun_last c i arg2 harg2 arg3 harg3 arg4 harg4 arg5 harg5 arg6 harg6 hc0 hc1 x0 x1 x2 xs).1)

/-! ## Point by point -/

/-- What the output block's buffer (first component; a placeholder off the last tiles, where nothing reads it) and the
    accumulator (second component) hold after the body at position `n`: the case the tile index selects, run on the
    point's buffers and input blocks, the accumulator carried from position `n − 1` except on a first tile. -/
def aggAt (c : Dev nD) : (n : ℕ) → n < cfg1.N → Vec F S2048x64 .f32 × Vec F S2048x64 .f32
  | 0, hn => (acc_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstTile_iff ⟨0, hn⟩).mpr (Nat.zero_mod _)) (fun h => absurd ((lastTile_iff ⟨0, hn⟩).mp h) (show ¬(0 : ℕ) % 16 = 15 by decide)) (iblk1 V c 0 ⟨0, hn⟩) (iblk1 V c 1 ⟨0, hn⟩) (iblk1 V c 2 ⟨0, hn⟩),
      acc_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstTile_iff ⟨0, hn⟩).mpr (Nat.zero_mod _)) (fun h => absurd ((lastTile_iff ⟨0, hn⟩).mp h) (show ¬(0 : ℕ) % 16 = 15 by decide)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (acc_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstTile_iff ⟨n + 1, hn⟩).mpr h0) (fun h => h1 ((lastTile_iff ⟨n + 1, hn⟩).mp h)) (iblk1 V c 0 ⟨n + 1, hn⟩) (iblk1 V c 1 ⟨n + 1, hn⟩) (iblk1 V c 2 ⟨n + 1, hn⟩),
          acc_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstTile_iff ⟨n + 1, hn⟩).mpr h0) (fun h => h1 ((lastTile_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) ((lastTile_iff ⟨n + 1, hn⟩).mpr h1) (iblk1 V c 0 ⟨n + 1, hn⟩) (iblk1 V c 1 ⟨n + 1, hn⟩) (iblk1 V c 2 ⟨n + 1, hn⟩) (aggAt c n (Nat.lt_of_succ_lt hn)).2,
          acc_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) ((lastTile_iff ⟨n + 1, hn⟩).mpr h1) (iblk1 V c 0 ⟨n + 1, hn⟩) (iblk1 V c 1 ⟨n + 1, hn⟩) (iblk1 V c 2 ⟨n + 1, hn⟩) (aggAt c n (Nat.lt_of_succ_lt hn)).2)
      else
        (acc_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) (fun h => h1 ((lastTile_iff ⟨n + 1, hn⟩).mp h)) (iblk1 V c 0 ⟨n + 1, hn⟩) (iblk1 V c 1 ⟨n + 1, hn⟩) (iblk1 V c 2 ⟨n + 1, hn⟩) (aggAt c n (Nat.lt_of_succ_lt hn)).2,
          acc_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstTile_iff ⟨n + 1, hn⟩).mp h)) (fun h => h1 ((lastTile_iff ⟨n + 1, hn⟩).mp h)) (iblk1 V c 0 ⟨n + 1, hn⟩) (iblk1 V c 1 ⟨n + 1, hn⟩) (iblk1 V c 2 ⟨n + 1, hn⟩) (aggAt c n (Nat.lt_of_succ_lt hn)).2)

/-- `aggAt` at a first tile. -/
theorem aggAt_first (c : Dev nD) (t : Fin cfg1.N) (h0 : t.val % 16 = 0) (h1 : ¬t.val % 16 = 15) :
    aggAt V c t.val t.isLt = (acc_first c (grid1.coords t) (ms1_0 t) (hs1_0 t) (ms1_1 t) (hs1_1 t) (ms1_2 t) (hs1_2 t) (ms1_3 t) (hs1_3 t) accM (Memref.isWhole_whole _) ((firstTile_iff t).mpr h0) (fun h => h1 ((lastTile_iff t).mp h)) (iblk1 V c 0 t) (iblk1 V c 1 t) (iblk1 V c 2 t), acc_first c (grid1.coords t) (ms1_0 t) (hs1_0 t) (ms1_1 t) (hs1_1 t) (ms1_2 t) (hs1_2 t) (ms1_3 t) (hs1_3 t) accM (Memref.isWhole_whole _) ((firstTile_iff t).mpr h0) (fun h => h1 ((lastTile_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `aggAt` at a middle tile: over what the point before left. -/
theorem aggAt_mid (c : Dev nD) (t : Fin cfg1.N) (h0 : ¬t.val % 16 = 0) (h1 : ¬t.val % 16 = 15) :
    aggAt V c t.val t.isLt = (acc_mid c (grid1.coords t) (ms1_0 t) (hs1_0 t) (ms1_1 t) (hs1_1 t) (ms1_2 t) (hs1_2 t) (ms1_3 t) (hs1_3 t) accM (Memref.isWhole_whole _) (fun h => h0 ((firstTile_iff t).mp h)) (fun h => h1 ((lastTile_iff t).mp h)) (iblk1 V c 0 t) (iblk1 V c 1 t) (iblk1 V c 2 t) (aggAt V c (t.val - 1) (Nat.lt_of_le_of_lt (Nat.sub_le _ _) t.isLt)).2, acc_mid c (grid1.coords t) (ms1_0 t) (hs1_0 t) (ms1_1 t) (hs1_1 t) (ms1_2 t) (hs1_2 t) (ms1_3 t) (hs1_3 t) accM (Memref.isWhole_whole _) (fun h => h0 ((firstTile_iff t).mp h)) (fun h => h1 ((lastTile_iff t).mp h)) (iblk1 V c 0 t) (iblk1 V c 1 t) (iblk1 V c 2 t) (aggAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `aggAt` at a last tile: over what the point before left; the output block beside it. -/
theorem aggAt_last (c : Dev nD) (t : Fin cfg1.N) (h0 : ¬t.val % 16 = 0) (h1 : t.val % 16 = 15) :
    aggAt V c t.val t.isLt = (out_last c (grid1.coords t) (ms1_0 t) (hs1_0 t) (ms1_1 t) (hs1_1 t) (ms1_2 t) (hs1_2 t) (ms1_3 t) (hs1_3 t) accM (Memref.isWhole_whole _) (fun h => h0 ((firstTile_iff t).mp h)) ((lastTile_iff t).mpr h1) (iblk1 V c 0 t) (iblk1 V c 1 t) (iblk1 V c 2 t) (aggAt V c (t.val - 1) (Nat.lt_of_le_of_lt (Nat.sub_le _ _) t.isLt)).2,
      acc_last c (grid1.coords t) (ms1_0 t) (hs1_0 t) (ms1_1 t) (hs1_1 t) (ms1_2 t) (hs1_2 t) (ms1_3 t) (hs1_3 t) accM (Memref.isWhole_whole _) (fun h => h0 ((firstTile_iff t).mp h)) ((lastTile_iff t).mpr h1) (iblk1 V c 0 t) (iblk1 V c 1 t) (iblk1 V c 2 t) (aggAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the entry hands over (the accumulator at
    anything); afterwards the accumulator at what the point before left; beside it, throughout, what the kernel never
    touches. -/
def accInv (c : Dev nD) : (n : ℕ) → n ≤ cfg1.N → sProp 𝕄
  | 0, _ => iprop((∃ d, owns (c : Thread nD τ) accM fullShare d) ∗ restInv c)
  | n + 1, hn => iprop(iprop(owns (c : Thread nD τ) accM fullShare ((aggAt V c n hn).2)) ∗ restInv c)

theorem accInv_zero (c : Dev nD) (n : ℕ) (h : n ≤ cfg1.N) (hz : n = 0) : accInv V c n h = iprop((∃ d, owns (c : Thread nD τ) accM fullShare d) ∗ restInv c) := by
  subst hz; rfl
theorem accInv_succ (c : Dev nD) (n : ℕ) (hn : n < cfg1.N) :
    accInv V c (n + 1) hn = iprop(iprop(owns (c : Thread nD τ) accM fullShare ((aggAt V c n hn).2)) ∗ restInv c) := rfl
theorem accInv_pos (c : Dev nD) (n : ℕ) (h : n ≤ cfg1.N) (hz : n ≠ 0) :
    accInv V c n h = iprop(iprop(owns (c : Thread nD τ) accM fullShare ((aggAt V c (n - 1) (by omega)).2)) ∗ restInv c) := by
  cases n with
  | zero => exact absurd rfl hz
  | succ n => rfl

/-! ## The pipeline's proof data -/

/-- The proof data on core `c`: the arrays as the region finds them; after the body at point `t` each input's buffer at
    its block and the output's at `aggAt`'s first component; the invariant `accInv`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (aggAt V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem accInv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (aggAt V c t.val t.isLt).1 := by dsimp only [dat1]

theorem before1_0 (c : Dev nD) (t : Fin cfg1.N) (d) : (dat1 V c).before 0 t d = iblk1 V c 0 t :=
  adj_before_of V (dat1 V c) (A_eq1 V c 0) (after1_0 V c) t d
theorem before1_1 (c : Dev nD) (t : Fin cfg1.N) (d) : (dat1 V c).before 1 t d = iblk1 V c 1 t :=
  h_before_of V (dat1 V c) (A_eq1 V c 1) (after1_1 V c) t d
theorem before1_2 (c : Dev nD) (t : Fin cfg1.N) (d) : (dat1 V c).before 2 t d = iblk1 V c 2 t :=
  bias_before_of V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the tile index says which case the point is in; the
    invariant hands the body the accumulator at what the point before left (at anything before the first point) and takes
    it back at this point's contents; off the last tiles the output block's buffer goes back as it came. -/
theorem agg_body_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = accInv V c (t.val + 1) t.isLt from rfl, accInv_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 16 = 0
  · have h1 : ¬t.val % 16 = 15 := by omega
    rw [Dat.leavesExact_idle (dat1 V c) 3 t (idle1_3_of t (fun h => h1 ((lastTile_iff t).mp h))) (noFlush1_3_of t (fun h => h1 ((lastTile_iff t).mp h)))]
    rw [aggAt_first V c t h0 h1]
    unfold acc_first; (try dsimp only)
    by_cases hz : t.val = 0
    · rw [accInv_castSucc V c t, accInv_zero V c _ _ hz]
      iintro ⟨⟨HS, Hg⟩, Ho, ⟨%d0, H0⟩, ⟨%d1, H1⟩, ⟨%d2, H2⟩, ⟨%d3, H3⟩⟩
      iapply ((aggRun_first c (grid1.coords t) _ _ _ _ _ _ _ _ _ _ ((firstTile_iff t).mpr h0) (fun h => h1 ((lastTile_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_first c (grid1.coords t) _ _ _ _ _ _ _ _ _ _ ((firstTile_iff t).mpr h0) (fun h => h1 ((lastTile_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [live1_3_of t ((lastTile_iff t).mpr h1)], after1_3]
      rw [aggAt_last V c t h0 h1]
      unfold out_last acc_last; (try dsimp only)
      rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_last c (grid1.coords t) _ _ _ _ _ _ _ _ _ _ (fun h => h0 ((firstTile_iff t).mp h)) ((lastTile_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (acc_cover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out_cover_last c _ _ _ _ _ _ _ _ _ _ _ _ _ _ _ _ _)
    · rw [Dat.leavesExact_idle (dat1 V c) 3 t (idle1_3_of t (fun h => h1 ((lastTile_iff t).mp h))) (noFlush1_3_of t (fun h => h1 ((lastTile_iff t).mp h)))]
      rw [aggAt_mid V c t h0 h1]
      unfold acc_mid; (try dsimp only)
      rw [accInv_castSucc V c t, accInv_pos V c _ _ hz]
      iintro ⟨⟨HS, Hg⟩, Ho, ⟨%d0, H0⟩, ⟨%d1, H1⟩, ⟨%d2, H2⟩, ⟨%d3, H3⟩⟩
      iapply ((aggRun_mid c (grid1.coords t) _ _ _ _ _ _ _ _ _ _ (fun h => h0 ((firstTile_iff t).mp h)) (fun h => h1 ((lastTile_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (acc_cover_mid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body's obligation, at every point. -/
theorem body_obligation1 (c : Dev nD) : BodyObligation (dat1 (F := F) V c) (defs₀ (F := F)) Variants.none () Set.univ := fun t => by
  rw [bigSep_W1, bigSep_W1]
  exact agg_body_at V c t

/-- What the entry hands the kernel is the invariant before the first point. -/
theorem agg_in (c : Dev nD) : Pipeline.ΦA spec1 c ⊢ (dat1 V c).Φ 0 := by
  rw [show (dat1 V c).Φ 0 = accInv V c 0 (Nat.zero_le _) from rfl, accInv_zero V c 0 _ rfl]
  exact entry_split c

/-- After the last point the invariant gives it back: what the accumulator holds is forgotten. -/
theorem agg_out (c : Dev nD) : (dat1 V c).Φ (Fin.last cfg1.N) ⊢ Pipeline.ΦA spec1 c := by
  rw [show (dat1 V c).Φ (Fin.last cfg1.N) = accInv V c (Fin.last cfg1.N).val (Nat.le_of_lt_succ (Fin.last cfg1.N).isLt) from rfl,
    accInv_pos V c _ _ (by rw [Fin.val_last]; have : cfg1.N = 128 := N_1; omega)]
  refine .trans ?_ (exit_join c)
  iintro ⟨HS, Hg⟩
  isplitl [HS]
  · iexists _; iexact HS
  iexact Hg

end

end Cert.Kernel.Hand

end
-- ==== Proof.BitsRun.lean ====
/-
  THE RUN of the whole program, at any float instance: @main is the projection region, one host line (the bias
  reshaped to a row), the aggregation region. Between two items every unscoped buffer of the core is held at contents
  named by a fold from the launch memory: a region leaves its arrays at what its write-backs fold to and every other
  buffer as it found it; the host line writes its one result. Each region enters from the fold before it and leaves at
  the fold after it, its arrays split out of the unscoped buffers and put back, the generator register riding along,
  nothing owed to any other core. The launch then gives: every weakly fair execution terminates, and every final
  memory holds every unscoped buffer at the last fold — whence the arguments unchanged, and the result by name.
-/
import proofs.«114878_j5755256177264_1_alg».proof.Proof.BitsProjRegion
import proofs.«114878_j5755256177264_1_alg».proof.Proof.BitsAggRegion
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the projection region finds. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region: its arrays at what its write-backs leave, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host line (the bias as a row): what the aggregation region finds. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the aggregation region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (dat1 (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host line writes only its own result. -/
theorem W2_of_not_written (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_not_written m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_not_written m ρ c main_arg3 (by decide)
    _ = W0 m ρ c (Proc.devRef .tc main_arg3) := W1_of_ne m ρ c main_arg3 (by decide)
    _ = m ((c : Thread nD τ).loc main_arg3) := rfl

/-- The result buffer ends at what the aggregation region's write-backs fold to. -/
theorem W3_main_v2 (c : Dev nD) : W3 m ρ c (Proc.devRef .tc main_v2) = (dat1 (V2 m ρ) c).arrAt 3 cfg1.N :=
  W3_arr m ρ c 3

/-! ## What the aggregation region finds in its arrays -/

/-- The adjacency: as launched. -/
theorem V2_main_arg1 (c : Dev nD) : V2 m ρ c main_arg1 = m ((c : Thread nD τ).loc main_arg1) :=
  (W2_of_not_written m ρ c main_arg1 (by decide)).trans ((W1_of_ne m ρ c main_arg1 (by decide)).trans rfl)
/-- The projected features: what the projection region's write-backs fold to. -/
theorem V2_main_v0 (c : Dev nD) : V2 m ρ c main_v0 = (dat0 (V0 m ρ) c).arrAt 2 cfg0.N :=
  (W2_of_not_written m ρ c main_v0 (by decide)).trans (W1_arr m ρ c 2)
/-- The bias row: the launch's bias vector, reshaped. -/
theorem V2_main_v1 (c : Dev nD) : V2 m ρ c main_v1 = shapeCast S1x64 (m ((c : Thread nD τ).loc main_arg3)) shapeCasts_S64_S1x64 := by
  have e : W1 m ρ c (Proc.devRef .tc main_arg3) = m ((c : Thread nD τ).loc main_arg3) := (W1_of_ne m ρ c main_arg3 (by decide)).trans rfl
  rw [← e]
  show StableHlo.after hostOps1 (W1 m ρ c) (Proc.devRef .tc main_v1) = _
  after_results
  rfl
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- THE PROJECTION REGION over the thread state: entered at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION REGION over the thread state: entered at `W2`, left at `W3`; what the entry hands the kernel beside
    its windows becomes the accumulator's invariant before the first point, and after the last point goes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (agg_in (V2 m ρ) c)
    unfold Pipeline.ΦA
    iintro ⟨Hp, -, Hr⟩
    isplitl [Hr]; · iexact Hr
    iexact Hp
  hout c := by
    rw [Pipeline.ownSems0_none]
    refine (agg_out (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- THE RUN WITH THE RESULT NAMED: the result buffer ends at what the aggregation region's write-backs fold to. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.GcnMath.lean ====
/-
  The arithmetic of a graph-convolution layer over the extended reals, stated over plain coordinates.
  `out[p, q] = (Σ_k adj[p, k] · h[k, q]) + b[q]` with `h[k, q] = Σ_l x[k, l] · w[l, q]`.
  A sum over 16384 neighbours taken tile by tile — sixteen tiles of 1024 columns, each tile's partial sum
  added onto a running total that starts at zero — is the whole sum: addition on the extended reals is
  commutative and associative, and zero is its unit; no distributive law, hence no finiteness, is needed.
-/
import Idealize.ShloMosaic.PureOps.Ideal
import Idealize.ShloMosaic.Lib.ValueIdx

noncomputable section

open Idealize.ShloMosaic
open scoped BigOperators

namespace Cert.GcnMath

/-- A rank-2 array read at natural-number coordinates (zero outside its extents). -/
def at2 {m n : Nat} (A : (⟨2, ![m, n]⟩ : Shape).Idx → EReal) (p k : Nat) : EReal :=
  if h : p < m ∧ k < n then A (ValueIdx.ix2 ⟨p, h.1⟩ ⟨k, h.2⟩) else 0

theorem at2_of_lt {m n : Nat} (A : (⟨2, ![m, n]⟩ : Shape).Idx → EReal) (p k : Nat) (hp : p < m) (hk : k < n) :
    at2 A p k = A (ValueIdx.ix2 ⟨p, hp⟩ ⟨k, hk⟩) := dif_pos ⟨hp, hk⟩

/-- The running total after tile `n`: zero plus the first tile's sum, then one more tile's sum per step. -/
def tileAcc (f : Nat → EReal) : Nat → EReal
  | 0 => 0 + ∑ kk : Fin 1024, f kk.val
  | n + 1 => tileAcc f n + ∑ kk : Fin 1024, f ((n + 1) * 1024 + kk.val)

theorem tileAcc_zero (f : Nat → EReal) : tileAcc f 0 = 0 + ∑ kk : Fin 1024, f kk.val := rfl
theorem tileAcc_succ (f : Nat → EReal) (n : Nat) :
    tileAcc f (n + 1) = tileAcc f n + ∑ kk : Fin 1024, f ((n + 1) * 1024 + kk.val) := rfl

/-- After tile `n` the running total is the sum over the first `(n + 1) · 1024` terms. -/
theorem tileAcc_eq_range (f : Nat → EReal) (n : Nat) : tileAcc f n = ∑ k ∈ Finset.range ((n + 1) * 1024), f k := by
  induction n with
  | zero =>
    rw [tileAcc_zero, zero_add, Fin.sum_univ_eq_sum_range (fun k => f k) 1024]
  | succ n ih =>
    rw [tileAcc_succ, ih, Fin.sum_univ_eq_sum_range (fun k => f ((n + 1) * 1024 + k)) 1024,
      show (n + 1 + 1) * 1024 = (n + 1) * 1024 + 1024 by ring, Finset.sum_range_add]

/-- After the sixteenth tile it is the sum over all 16384 terms. -/
theorem tileAcc_last (f : Nat → EReal) : tileAcc f 15 = ∑ k : Fin 16384, f k.val := by
  rw [tileAcc_eq_range, Fin.sum_univ_eq_sum_range (fun k => f k) 16384]

/-- The layer's output at row `p`, feature `q`. -/
def gcnAt (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) (p : Fin 16384) (q : Fin 64) : EReal :=
  (∑ k : Fin 16384, adj (ValueIdx.ix2 p k) * ∑ l : Fin 64, x (ValueIdx.ix2 k l) * w (ValueIdx.ix2 l q)) + b (ValueIdx.ix1 q)

/-- The layer's output as an array. -/
def gcn (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) :
    (⟨2, ![16384, 64]⟩ : Shape).Idx → EReal :=
  fun i => gcnAt x adj w b ⟨(i 0).val, ValueIdx.idx2_lt0 i⟩ ⟨(i 1).val, ValueIdx.idx2_lt1 i⟩

/-- The projection `h = x · w` as an array. -/
def proj (x : (⟨2, ![16384, 64]⟩ : Shape).Idx → EReal) (w : (⟨2, ![64, 64]⟩ : Shape).Idx → EReal) :
    (⟨2, ![16384, 64]⟩ : Shape).Idx → EReal :=
  fun i => ∑ l : Fin 64, x (ValueIdx.ix2 ⟨(i 0).val, ValueIdx.idx2_lt0 i⟩ l) * w (ValueIdx.ix2 l ⟨(i 1).val, ValueIdx.idx2_lt1 i⟩)

theorem proj_ix2 (x : (⟨2, ![16384, 64]⟩ : Shape).Idx → EReal) (w : (⟨2, ![64, 64]⟩ : Shape).Idx → EReal) (k : Fin 16384) (q : Fin 64) :
    proj x w (ValueIdx.ix2 k q) = ∑ l : Fin 64, x (ValueIdx.ix2 k l) * w (ValueIdx.ix2 l q) := rfl

/-- The output from the projection: the tile-by-tile total of row `p` of `adj` against column `q` of `h`, plus the bias. -/
theorem gcnAt_eq_tiles (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) (p : Fin 16384) (q : Fin 64) :
    tileAcc (fun k => at2 adj p.val k * at2 (proj x w) k q.val) 15 + b (ValueIdx.ix1 q) = gcnAt x adj w b p q := by
  rw [tileAcc_last]
  unfold gcnAt
  refine congrArg (· + b (ValueIdx.ix1 q)) (Finset.sum_congr rfl fun k _ => ?_)
  rw [at2_of_lt adj p.val k.val p.isLt k.isLt, at2_of_lt (proj x w) k.val q.val k.isLt q.isLt]
  rfl

end Cert.GcnMath

end
-- ==== Proof.IdealPayloads.lean ====
/- The four stored values of the two kernel bodies, each read at one index at the ideal values:
   a float is an extended real, a change of float format is the identity, and a matrix product
   into a zero accumulator is a plain finite sum over the contracted coordinate. -/
import proofs.«114878_j5755256177264_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Idealize.ShloMosaic Cert.KernelIdeal Cert.KernelIdeal.Gen
open ValueIdx (ix2)

/-! ## The reset value: the zero splat -/

/-- The value the first reduction step stores into the accumulator is zero everywhere. -/
theorem reset_apply (r : Fin 2048) (q : Fin 64) : k1_pay1 (F := Ideal) (ix2 r q) = 0 := by
  unfold k1_pay1
  rw [shapeCast_self]
  exact Ideal.ofBits_zero_f32

/-! ## The bias step: the accumulator plus the row vector, broadcast down the rows -/

/-- The broadcast of a one-row array read at (r, q) is the row's entry at column q. -/
theorem bias_apply (a : Vec Ideal S2048x64 .f32) (bb : Vec Ideal S1x64 .f32) (r : Fin 2048) (q : Fin 64) :
    k1_pay3 (F := Ideal) a bb (ix2 r q) = a (ix2 r q) + bb (ix2 (0 : Fin 1) q) := by
  unfold k1_pay3
  rw [shapeCast_self]
  rw [ValueIdx.addf_apply]
  congr 1
  refine broadcastTo_apply bb broadcasts_S1x64_S2048x64 (ix2 r q) (ix2 (0 : Fin 1) q) (fun a => ?_)
  match a with
  | ⟨0, _⟩ => show 0 = if (1 : Nat) = 1 then 0 else _; rw [if_pos rfl]
  | ⟨1, _⟩ => show q.val = if (64 : Nat) = 1 then 0 else q.val; rw [if_neg (by decide)]

/-! ## The reduction step: the accumulator plus one block's matrix product -/

theorem lhs_step_0 (i : S2048x64.Idx) (k : Cert.KernelIdeal.dot_S2048x1024_S1024x64_S2048x64_1_0_0_1_n_n.contr.Idx) :
    (Cert.KernelIdeal.dot_S2048x1024_S1024x64_S2048x64_1_0_0_1_n_n.lhsIdx i k 0).val = (i 0).val := by
  unfold DotDims.lhsIdx
  rw [dif_neg (show ¬(0 : Fin S2048x1024.rank) ∈ Cert.KernelIdeal.dot_S2048x1024_S1024x64_S2048x64_1_0_0_1_n_n.lhsBatch by decide), dif_pos (show (0 : Fin S2048x1024.rank) ∈ Cert.KernelIdeal.dot_S2048x1024_S1024x64_S2048x64_1_0_0_1_n_n.lhsNonContracting by decide)]
  rfl
theorem lhs_step_1 (i : S2048x64.Idx) (k : Cert.KernelIdeal.dot_S2048x1024_S1024x64_S2048x64_1_0_0_1_n_n.contr.Idx) :
    (Cert.KernelIdeal.dot_S2048x1024_S1024x64_S2048x64_1_0_0_1_n_n.lhsIdx i k 1).val = (k ⟨0, by decide⟩).val :=
  Cert.KernelIdeal.dot_S2048x1024_S1024x64_S2048x64_1_0_0_1_n_n.lhsIdx_val_of_single rfl i k
theorem rhs_step_0 (i : S2048x64.Idx) (k : Cert.KernelIdeal.dot_S2048x1024_S1024x64_S2048x64_1_0_0_1_n_n.contr.Idx) :
    (Cert.KernelIdeal.dot_S2048x1024_S1024x64_S2048x64_1_0_0_1_n_n.rhsIdx i k 0).val = (k ⟨0, by decide⟩).val :=
  Cert.KernelIdeal.dot_S2048x1024_S1024x64_S2048x64_1_0_0_1_n_n.rhsIdx_val_of_single rfl i k
theorem rhs_step_1 (i : S2048x64.Idx) (k : Cert.KernelIdeal.dot_S2048x1024_S1024x64_S2048x64_1_0_0_1_n_n.contr.Idx) :
    (Cert.KernelIdeal.dot_S2048x1024_S1024x64_S2048x64_1_0_0_1_n_n.rhsIdx i k 1).val = (i 1).val := by
  unfold DotDims.rhsIdx
  rw [dif_neg (show ¬(1 : Fin S1024x64.rank) ∈ Cert.KernelIdeal.dot_S2048x1024_S1024x64_S2048x64_1_0_0_1_n_n.rhsBatch by decide), dif_pos (show (1 : Fin S1024x64.rank) ∈ Cert.KernelIdeal.dot_S2048x1024_S1024x64_S2048x64_1_0_0_1_n_n.rhsNonContracting by decide)]
  rfl

/-- The block product into the zero accumulator, read at (r, q): the sum over the contracted
    coordinate of the left operand's row r against the right operand's column q. -/
theorem step_matmul_apply (l : FVec Ideal S2048x1024 .bf16) (rr : FVec Ideal S1024x64 .bf16) (r : Fin 2048) (q : Fin 64) :
    matmul (F := Ideal) Cert.KernelIdeal.dot_S2048x1024_S1024x64_S2048x64_1_0_0_1_n_n none l rr (constant (F := Ideal) S2048x64 .f32 0x00000000#32) (ix2 r q)
      = ∑ kk : Fin 1024, l (ix2 r kk) * rr (ix2 kk q) := by
  refine (Ideal.matmul_constant_zero_apply Cert.KernelIdeal.dot_S2048x1024_S1024x64_S2048x64_1_0_0_1_n_n none l rr (ix2 r q)).trans ?_
  rw [← Equiv.sum_comp (ValueIdx.contrEquiv1 Cert.KernelIdeal.dot_S2048x1024_S1024x64_S2048x64_1_0_0_1_n_n 1024 rfl rfl).symm]
  refine Finset.sum_congr rfl fun k _ => ?_
  have hk := ValueIdx.contrEquiv1_symm_val Cert.KernelIdeal.dot_S2048x1024_S1024x64_S2048x64_1_0_0_1_n_n 1024 rfl rfl k
  have el : Cert.KernelIdeal.dot_S2048x1024_S1024x64_S2048x64_1_0_0_1_n_n.lhsIdx (ix2 r q) ((ValueIdx.contrEquiv1 Cert.KernelIdeal.dot_S2048x1024_S1024x64_S2048x64_1_0_0_1_n_n 1024 rfl rfl).symm k) = ix2 r k := funext fun a => Fin.ext (by
    match a with
    | ⟨0, _⟩ => exact lhs_step_0 _ _
    | ⟨1, _⟩ => exact (lhs_step_1 _ _).trans hk)
  have er : Cert.KernelIdeal.dot_S2048x1024_S1024x64_S2048x64_1_0_0_1_n_n.rhsIdx (ix2 r q) ((ValueIdx.contrEquiv1 Cert.KernelIdeal.dot_S2048x1024_S1024x64_S2048x64_1_0_0_1_n_n 1024 rfl rfl).symm k) = ix2 k q := funext fun a => Fin.ext (by
    match a with
    | ⟨0, _⟩ => exact (rhs_step_0 _ _).trans hk
    | ⟨1, _⟩ => exact rhs_step_1 _ _)
  rw [el, er]

/-- The stored value of a reduction step at (r, q): the accumulator there plus the block's product. -/
theorem step_apply (x0 : Vec Ideal S2048x1024 .f32) (x1 : Vec Ideal S1024x64 .bf16) (s : Vec Ideal S2048x64 .f32) (r : Fin 2048) (q : Fin 64) :
    k1_pay2 (F := Ideal) x0 x1 s (ix2 r q) = s (ix2 r q) + ∑ kk : Fin 1024, x0 (ix2 r kk) * x1 (ix2 kk q) := by
  unfold k1_pay2
  rw [shapeCast_self, shapeCast_self, ValueIdx.addf_apply, step_matmul_apply]
  rfl

/-! ## The projection: one block's matrix product -/

theorem lhs_proj_0 (i : S4096x64.Idx) (k : Cert.KernelIdeal.dot_S4096x64_S64x64_S4096x64_1_0_0_1_n_n.contr.Idx) :
    (Cert.KernelIdeal.dot_S4096x64_S64x64_S4096x64_1_0_0_1_n_n.lhsIdx i k 0).val = (i 0).val := by
  unfold DotDims.lhsIdx
  rw [dif_neg (show ¬(0 : Fin S4096x64.rank) ∈ Cert.KernelIdeal.dot_S4096x64_S64x64_S4096x64_1_0_0_1_n_n.lhsBatch by decide), dif_pos (show (0 : Fin S4096x64.rank) ∈ Cert.KernelIdeal.dot_S4096x64_S64x64_S4096x64_1_0_0_1_n_n.lhsNonContracting by decide)]
  rfl
theorem lhs_proj_1 (i : S4096x64.Idx) (k : Cert.KernelIdeal.dot_S4096x64_S64x64_S4096x64_1_0_0_1_n_n.contr.Idx) :
    (Cert.KernelIdeal.dot_S4096x64_S64x64_S4096x64_1_0_0_1_n_n.lhsIdx i k 1).val = (k ⟨0, by decide⟩).val :=
  Cert.KernelIdeal.dot_S4096x64_S64x64_S4096x64_1_0_0_1_n_n.lhsIdx_val_of_single rfl i k
theorem rhs_proj_0 (i : S4096x64.Idx) (k : Cert.KernelIdeal.dot_S4096x64_S64x64_S4096x64_1_0_0_1_n_n.contr.Idx) :
    (Cert.KernelIdeal.dot_S4096x64_S64x64_S4096x64_1_0_0_1_n_n.rhsIdx i k 0).val = (k ⟨0, by decide⟩).val :=
  Cert.KernelIdeal.dot_S4096x64_S64x64_S4096x64_1_0_0_1_n_n.rhsIdx_val_of_single rfl i k
theorem rhs_proj_1 (i : S4096x64.Idx) (k : Cert.KernelIdeal.dot_S4096x64_S64x64_S4096x64_1_0_0_1_n_n.contr.Idx) :
    (Cert.KernelIdeal.dot_S4096x64_S64x64_S4096x64_1_0_0_1_n_n.rhsIdx i k 1).val = (i 1).val := by
  unfold DotDims.rhsIdx
  rw [dif_neg (show ¬(1 : Fin S64x64.rank) ∈ Cert.KernelIdeal.dot_S4096x64_S64x64_S4096x64_1_0_0_1_n_n.rhsBatch by decide), dif_pos (show (1 : Fin S64x64.rank) ∈ Cert.KernelIdeal.dot_S4096x64_S64x64_S4096x64_1_0_0_1_n_n.rhsNonContracting by decide)]
  rfl

/-- The projection's product into the zero accumulator, read at (r, q). -/
theorem proj_matmul_apply (l : FVec Ideal S4096x64 .bf16) (rr : FVec Ideal S64x64 .bf16) (r : Fin 4096) (q : Fin 64) :
    matmul (F := Ideal) Cert.KernelIdeal.dot_S4096x64_S64x64_S4096x64_1_0_0_1_n_n none l rr (constant (F := Ideal) S4096x64 .f32 0x00000000#32) (ix2 r q)
      = ∑ kk : Fin 64, l (ix2 r kk) * rr (ix2 kk q) := by
  refine (Ideal.matmul_constant_zero_apply Cert.KernelIdeal.dot_S4096x64_S64x64_S4096x64_1_0_0_1_n_n none l rr (ix2 r q)).trans ?_
  rw [← Equiv.sum_comp (ValueIdx.contrEquiv1 Cert.KernelIdeal.dot_S4096x64_S64x64_S4096x64_1_0_0_1_n_n 64 rfl rfl).symm]
  refine Finset.sum_congr rfl fun k _ => ?_
  have hk := ValueIdx.contrEquiv1_symm_val Cert.KernelIdeal.dot_S4096x64_S64x64_S4096x64_1_0_0_1_n_n 64 rfl rfl k
  have el : Cert.KernelIdeal.dot_S4096x64_S64x64_S4096x64_1_0_0_1_n_n.lhsIdx (ix2 r q) ((ValueIdx.contrEquiv1 Cert.KernelIdeal.dot_S4096x64_S64x64_S4096x64_1_0_0_1_n_n 64 rfl rfl).symm k) = ix2 r k := funext fun a => Fin.ext (by
    match a with
    | ⟨0, _⟩ => exact lhs_proj_0 _ _
    | ⟨1, _⟩ => exact (lhs_proj_1 _ _).trans hk)
  have er : Cert.KernelIdeal.dot_S4096x64_S64x64_S4096x64_1_0_0_1_n_n.rhsIdx (ix2 r q) ((ValueIdx.contrEquiv1 Cert.KernelIdeal.dot_S4096x64_S64x64_S4096x64_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]

/-- The stored value of the projection at (r, q): row r of the block against column q of the weights. -/
theorem proj_apply (x0 : Vec Ideal S4096x64 .f32) (x1 : Vec Ideal S64x64 .f32) (r : Fin 4096) (q : Fin 64) :
    k0_pay1 (F := Ideal) x0 x1 (ix2 r q) = ∑ l : Fin 64, x0 (ix2 r l) * x1 (ix2 l q) := by
  unfold k0_pay1
  rw [ValueIdx.truncf_apply, proj_matmul_apply]
  rfl

end Cert.KernelIdeal.Payloads

end
-- ==== Proof.IdealProjValue.lean ====
/- The value of the projection region at the ideal values: after the region the array of the projected features
   is the product x · w of the region-entry contents of the features and the weights, entry by entry.
   Point t of the four-point grid writes rows 4096·t … 4096·t + 4095; what it writes is the product of the rows
   4096·t … of x with the whole of w; the four row blocks tile the array. -/
import proofs.«114878_j5755256177264_1_alg».proof.Proof.IdealProjRegion
import proofs.«114878_j5755256177264_1_alg».proof.Proof.GcnMath
import proofs.«114878_j5755256177264_1_alg».proof.Proof.IdealPayloads
import Idealize.ShloMosaic.Lib.Pipeline.Value
import Idealize.ShloMosaic.Lib.ValueIdx

noncomputable section

open scoped BigOperators

namespace Cert.KernelIdeal.ProjValue

open Idealize.ShloMosaic Idealize.ShloMosaic.TcCoe Idealize.SL.Sem
open Idealize.ShloMosaic.Pipeline (Dat)
open Cert.KernelIdeal Cert.KernelIdeal.Gen Cert.KernelIdeal.Hand
open ValueIdx (ix2)

theorem zero_offsets : (![0, 0] : Fin 2 → Nat) = fun _ => 0 := funext fun a => by fin_cases a <;> rfl

/-- What the body leaves in the output block, read at (r, q): row r of the loaded rows against column q of the
    loaded weights. -/
theorem hblock_apply (x0 : Vec Ideal S4096x64 .f32) (x1 : Vec Ideal S64x64 .f32) (r : Fin 4096) (q : Fin 64) :
    hblock (F := Ideal) x0 x1 (ix2 r q) = ∑ l : Fin 64, x0 (ix2 r l) * x1 (ix2 l q) := by
  unfold hblock
  rw [View.canon_unit_zero zero_offsets]
  simp only [View.ld_unit_zero (S := S4096x64) zero_offsets, View.ld_unit_zero (S := S64x64) zero_offsets]
  exact Payloads.proj_apply x0 x1 r q

/-- The block indices of the three windows at a point, decided over the grid. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's block from blocks that are rows of x and the whole of w: it is those rows of the product. -/
theorem product_rows (x0 : Vec Ideal S4096x64 .f32) (x1 : Vec Ideal S64x64 .f32)
    (X : S16384x64.Idx → EReal) (W : S64x64.Idx → EReal) (n : Nat)
    (hx : ∀ (y : S4096x64.Idx) (k : S16384x64.Idx), (k 0).val = 4096 * n + (y 0).val → (k 1).val = (y 1).val → x0 y = X k)
    (hw : ∀ y : S64x64.Idx, x1 y = W y)
    (y : S4096x64.Idx) (i : S16384x64.Idx) (hi0 : (i 0).val = 4096 * n + (y 0).val) (hi1 : (i 1).val = (y 1).val) :
    hblock (F := Ideal) x0 x1 y = Cert.GcnMath.proj X W i := by
  obtain ⟨r, q, rfl⟩ : ∃ (r : Fin 4096) (q : Fin 64), y = ix2 r q := ⟨y 0, y 1, ValueIdx.eq_ix2 y⟩
  rw [hblock_apply]
  unfold Cert.GcnMath.proj
  refine Finset.sum_congr rfl fun l _ => ?_
  rw [hx (ix2 r l) (ix2 ⟨(i 0).val, ValueIdx.idx2_lt0 i⟩ l) hi0 rfl, hw]
  have hq : (⟨(i 1).val, ValueIdx.idx2_lt1 i⟩ : Fin 64) = q := Fin.ext hi1
  rw [hq]

section
variable (V : (c : Dev nD) → (b : Ref sig .tc) → Buf (Elt Ideal) ((c : Thread nD τ).loc b))

/-- The rows of x that point t reads: entry (r, l) of the block is entry (4096·t + r, l) of the array. -/
theorem xrows_apply (c : Dev nD) (t : Fin cfg0.N) (y : S4096x64.Idx) (k : S16384x64.Idx)
    (hk0 : (k 0).val = 4096 * t.val + (y 0).val) (hk1 : (k 1).val = (y 1).val) :
    (iblk0 V c 0 t : Vec Ideal S4096x64 .f32) y = (V c main_arg0 : S16384x64.Idx → EReal) k := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 4096 + 1 * (y 0).val = (k 0).val; rw [e0, hk0]; omega
  | ⟨1, _⟩ => show win0_0.index t (1 : Fin 2) * 64 + 1 * (y 1).val = (k 1).val; rw [e1, hk1]; omega

/-- The weights every point reads are the whole array. -/
theorem weights_apply (c : Dev nD) (t : Fin cfg0.N) (y : S64x64.Idx) :
    (iblk0 V c 1 t : Vec Ideal S64x64 .f32) y = (V c main_arg2 : S64x64.Idx → EReal) y := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- What point t writes back is its block of rows of the product x · w. -/
theorem written_eq (c : Dev nD) (t : Fin cfg0.N) :
    (dat0 (F := Ideal) V c).flushed 2 t
      = ((cfg0.win 2).blk t).view.read (Elt Ideal) (Cert.GcnMath.proj (V c main_arg0) (V c main_arg2)) := by
  show (cfg0.win 2).cut (grid0.coords t) ((dat0 (F := Ideal) V c).after 2 t) = _
  rw [after0_2]
  obtain ⟨-, -, -, -, e0, e1⟩ := block_indices t
  funext j
  show hblock (F := Ideal) (iblk0 V c 0 t) (iblk0 V c 1 t) ((cfg0.win 2).xinj (grid0.coords t) j)
    = Cert.GcnMath.proj (V c main_arg0) (V c main_arg2) (((cfg0.win 2).blk t).view.emb j)
  refine product_rows _ _ _ _ t.val (xrows_apply V c t) (weights_apply V c t) _ _ ?_ ?_
  · show win0_2.index t (0 : Fin 2) * 4096 + 1 * (j 0).val = 4096 * t.val + (j 0).val
    rw [e0]; omega
  · show win0_2.index t (1 : Fin 2) * 64 + 1 * (j 1).val = (j 1).val
    rw [e1]; omega

/-- An index of the array is in point t's block iff each coordinate is in the block's range on its axis. -/
theorem mem_rows (t : Fin cfg0.N) (i : S16384x64.Idx) :
    i ∈ ((cfg0.win 2).blk t).view.set
      ↔ ∀ a : Fin 2, win0_2.index t a * S4096x64.size a ≤ (i a).val ∧ (i a).val < win0_2.index t a * S4096x64.size a + S4096x64.size a := by
  show i ∈ ((View.whole main_v0).slice (win0_2.rect t)).set ↔ _
  rw [View.set_slice_whole, Rect.mem_set_unit]
  exact Iff.rfl

/-- The four row blocks tile the array: row p is in the block of point p / 4096. -/
theorem rows_cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : grid0.N = 4 := N_0
  have ht : (i 0).val / 4096 < cfg0.N := by show _ < grid0.N; rw [hN]; omega
  refine ⟨⟨(i 0).val / 4096, ht⟩, flush0_2 _, ?_⟩
  obtain ⟨-, -, -, -, e0, e1⟩ := block_indices ⟨(i 0).val / 4096, ht⟩
  rw [mem_rows]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_2.index ⟨(i 0).val / 4096, ht⟩ (1 : Fin 2) * 64 ≤ (i 1).val ∧ (i 1).val < win0_2.index ⟨(i 0).val / 4096, ht⟩ (1 : Fin 2) * 64 + 64
    rw [e1]; omega
end

/-- The array of the projected features after the region: the product of the region-entry features and weights. -/
theorem proj_array (V : (c : Dev nD) → (b : Ref sig .tc) → Buf (Elt Ideal) ((c : Thread nD τ).loc b)) (c : Dev nD) :
    (dat0 (F := Ideal) V c).arrAt 2 cfg0.N = Cert.GcnMath.proj (V c main_arg0) (V c main_arg2) :=
  (dat0 (F := Ideal) V c).arrAt_eq_of_cover 2 (Cert.GcnMath.proj (V c main_arg0) (V c main_arg2))
    (fun t _ => written_eq V c t) rows_cover

end Cert.KernelIdeal.ProjValue

end
-- ==== Proof.IdealAggPieces.lean ====
/-
  What each control case of the aggregation body leaves behind, as the body's named arithmetic applied to the blocks it
  is handed, at any float instance.
  On a first column tile the accumulator is set to zero rows, read back, and the tile's product added onto it; on a
  later tile the product is added onto what the tile before left; on a last tile the accumulator is then read back
  and the bias row added to it into the output block. Every load and every store goes through the whole-buffer
  rectangle at zero offsets, so a load reads the buffer's contents and the last store leaves its payload.
-/
import proofs.«114878_j5755256177264_1_alg».proof.Proof.IdealAggRegion
import Idealize.ShloMosaic.Lib.Pipeline.Value

set_option maxRecDepth 16384

noncomputable section

namespace Cert.KernelIdeal.AggPieces

open Idealize.ShloMosaic Idealize.ShloMosaic.TcCoe Idealize.SL.Sem
open Cert.KernelIdeal Cert.KernelIdeal.Gen Cert.KernelIdeal.Hand

variable {F : FTy → Type} [FloatOps F]

/-- The whole-buffer rectangle's offsets are zero. -/
theorem hz : (![0, 0] : Fin 2 → Nat) = fun _ => 0 := funext fun a => by fin_cases a <;> rfl

/-- FIRST TILE: the zero rows are stored, read back, and the tile's product added onto them. -/
theorem acc_first_eq (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : firstTile i) (hc1 : ¬lastTile i) (x0 : Vec F S2048x1024 .f32) (x1 : Vec F S1024x64 .bf16) (x2 : Vec F S1x64 .f32) :
    acc_first c i arg2 harg2 arg3 harg3 arg4 harg4 arg5 harg5 arg6 harg6 hc0 hc1 x0 x1 x2 = k1_pay2 x0 x1 (k1_pay1 (F := F)) := by
  unfold acc_first
  rw [View.read_writes_eq_canon _ _ _ (acc_cover_first c i arg2 harg2 arg3 harg3 arg4 harg4 arg5 harg5 arg6 harg6 hc0 hc1 x0 x1 x2)]
  unfold aggRun_first
  dsimp only
  sl_unfold_words
  rw [View.canon_cons_unit_zero (S := S2048x64) hz, View.readCov_unit_zero (S := S2048x64) _ hz]
  simp only [View.readAt_eq_ld, harg2.read_unread, harg3.read_unread, View.ld_unit_zero (S := S2048x1024) hz, View.ld_unit_zero (S := S1024x64) hz]

/-- A MIDDLE TILE: the tile's product is added onto what the tile before left. -/
theorem acc_mid_eq (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬firstTile i) (hc1 : ¬lastTile i) (x0 : Vec F S2048x1024 .f32) (x1 : Vec F S1024x64 .bf16) (x2 : Vec F S1x64 .f32) (xs : Vec F S2048x64 .f32) :
    acc_mid c i arg2 harg2 arg3 harg3 arg4 harg4 arg5 harg5 arg6 harg6 hc0 hc1 x0 x1 x2 xs = k1_pay2 x0 x1 xs := by
  unfold acc_mid
  rw [View.read_writes_eq_canon _ _ _ (acc_cover_mid c i arg2 harg2 arg3 harg3 arg4 harg4 arg5 harg5 arg6 harg6 hc0 hc1 x0 x1 x2 xs)]
  unfold aggRun_mid
  dsimp only
  sl_unfold_words
  rw [View.canon_unit_zero (S := S2048x64) hz]
  simp only [View.readAt_eq_ld, harg2.read_unread, harg3.read_unread, harg6.read_unread, View.ld_unit_zero (S := S2048x1024) hz, View.ld_unit_zero (S := S1024x64) hz, View.ld_unit_zero (S := S2048x64) hz]

/-- THE LAST TILE, the accumulator: as on a middle tile. -/
theorem acc_last_eq (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬firstTile i) (hc1 : lastTile i) (x0 : Vec F S2048x1024 .f32) (x1 : Vec F S1024x64 .bf16) (x2 : Vec F S1x64 .f32) (xs : Vec F S2048x64 .f32) :
    acc_last c i arg2 harg2 arg3 harg3 arg4 harg4 arg5 harg5 arg6 harg6 hc0 hc1 x0 x1 x2 xs = k1_pay2 x0 x1 xs := by
  unfold acc_last
  rw [View.read_writes_eq_canon _ _ _ (acc_cover_last c i arg2 harg2 arg3 harg3 arg4 harg4 arg5 harg5 arg6 harg6 hc0 hc1 x0 x1 x2 xs)]
  unfold aggRun_last
  dsimp only
  sl_unfold_words
  rw [View.canon_unit_zero (S := S2048x64) hz]
  simp only [View.readAt_eq_ld, harg2.read_unread, harg3.read_unread, harg6.read_unread, View.ld_unit_zero (S := S2048x1024) hz, View.ld_unit_zero (S := S1024x64) hz, View.ld_unit_zero (S := S2048x64) hz]

/-- THE LAST TILE, the output block: the accumulator read back, plus the bias row. -/
theorem out_last_eq (c : Dev nD) (i : grid1.Coords) (arg2 : Memref sig .tc .vmem S2048x1024 .f32) (harg2 : arg2.IsWhole) (arg3 : Memref sig .tc .vmem S1024x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬firstTile i) (hc1 : lastTile i) (x0 : Vec F S2048x1024 .f32) (x1 : Vec F S1024x64 .bf16) (x2 : Vec F S1x64 .f32) (xs : Vec F S2048x64 .f32) :
    out_last c i arg2 harg2 arg3 harg3 arg4 harg4 arg5 harg5 arg6 harg6 hc0 hc1 x0 x1 x2 xs = k1_pay3 (k1_pay2 x0 x1 xs) x2 := by
  unfold out_last
  rw [View.read_writes_eq_canon _ _ _ (out_cover_last c i arg2 harg2 arg3 harg3 arg4 harg4 arg5 harg5 arg6 harg6 hc0 hc1 x0 x1 x2 xs)]
  unfold aggRun_last
  dsimp only
  sl_unfold_words
  rw [View.canon_unit_zero (S := S2048x64) hz]
  simp only [View.readAt_eq_ld, harg2.read_unread, harg3.read_unread, harg4.read_unread, harg6.read_unread, View.readCov_unit_zero (S := S2048x64) _ hz, View.ld_unit_zero (S := S2048x1024) hz, View.ld_unit_zero (S := S1024x64) hz, View.ld_unit_zero (S := S1x64) hz, View.ld_unit_zero (S := S2048x64) hz]

end Cert.KernelIdeal.AggPieces

end
-- ==== Proof.IdealAggValue.lean ====
/- The value of the aggregation region at the ideal values: after the region the result array holds, at row p and
   feature q, the tile-by-tile running total of row p of the adjacency matrix against column q of the projected
   features, plus the bias.
   The grid is 8 row blocks × 16 column tiles, point t = 16 · (row block) + (tile). The accumulator after point t
   holds, at (r, q), the running total over the tiles 0 … t mod 16 of row (t / 16) · 2048 + r: a first tile starts
   from zero, a later tile adds its partial sum onto what the point before left. A last tile stores the
   accumulator plus the bias row; the eight blocks of 2048 rows so stored tile the array. -/
import proofs.«114878_j5755256177264_1_alg».proof.Proof.IdealAggRegion
import proofs.«114878_j5755256177264_1_alg».proof.Proof.GcnMath
import proofs.«114878_j5755256177264_1_alg».proof.Proof.IdealPayloads
import proofs.«114878_j5755256177264_1_alg».proof.Proof.IdealAggPieces
import Idealize.ShloMosaic.Lib.Pipeline.Value
import Idealize.ShloMosaic.Lib.ValueIdx

noncomputable section

open scoped BigOperators

namespace Cert.KernelIdeal.AggValue

open Idealize.ShloMosaic Idealize.ShloMosaic.TcCoe Idealize.SL.Sem
open Idealize.ShloMosaic.Pipeline (Dat)
open Cert.KernelIdeal Cert.KernelIdeal.Gen Cert.KernelIdeal.Hand
open ValueIdx (ix2)
open Cert.GcnMath (tileAcc at2)

/-- The block indices of the four windows at a point, decided over the grid. -/
theorem block_indices : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

section
variable (V : (c : Dev nD) → (b : Ref sig .tc) → Buf (Elt Ideal) ((c : Thread nD τ).loc b))

/-- The three arrays the region reads, as it finds them, -/
abbrev adjArr (c : Dev nD) : S16384x16384.Idx → EReal := V c main_arg1
abbrev hArr (c : Dev nD) : S16384x64.Idx → EReal := V c main_v0
abbrev biasArr (c : Dev nD) : S1x64.Idx → EReal := V c main_v1
/-- and their blocks at a point. -/
abbrev adjBlk (c : Dev nD) (t : Fin cfg1.N) : Vec Ideal S2048x1024 .f32 := iblk1 V c 0 t
abbrev hBlk (c : Dev nD) (t : Fin cfg1.N) : Vec Ideal S1024x64 .bf16 := iblk1 V c 1 t
abbrev biasBlk (c : Dev nD) (t : Fin cfg1.N) : Vec Ideal S1x64 .f32 := iblk1 V c 2 t

/-- The adjacency tile of point t: entry (r, kk) is entry ((t / 16) · 2048 + r, (t mod 16) · 1024 + kk) of the matrix. -/
theorem adjBlk_apply (c : Dev nD) (t : Fin cfg1.N) (y : S2048x1024.Idx) (k : S16384x16384.Idx)
    (hk0 : (k 0).val = t.val / 16 * 2048 + (y 0).val) (hk1 : (k 1).val = t.val % 16 * 1024 + (y 1).val) :
    adjBlk V c t y = adjArr V c k := by
  obtain ⟨e0, e1, -⟩ := block_indices t
  unfold adjBlk adjArr iblk1
  rw [View.read_apply]
  show V c main_arg1 _ = V c main_arg1 _
  congr 1
  funext a
  apply Fin.ext
  match a with
  | ⟨0, _⟩ => show win1_0.index t (0 : Fin 2) * 2048 + 1 * (y 0).val = (k 0).val; rw [e0, hk0]; omega
  | ⟨1, _⟩ => show win1_0.index t (1 : Fin 2) * 1024 + 1 * (y 1).val = (k 1).val; rw [e1, hk1]; omega

/-- The tile of the projected features of point t: entry (kk, q) is entry ((t mod 16) · 1024 + kk, q) of the array. -/
theorem hBlk_apply (c : Dev nD) (t : Fin cfg1.N) (y : S1024x64.Idx) (k : S16384x64.Idx)
    (hk0 : (k 0).val = t.val % 16 * 1024 + (y 0).val) (hk1 : (k 1).val = (y 1).val) :
    hBlk V c t y = hArr V c k := by
  obtain ⟨-, -, e0, e1, -⟩ := block_indices t
  unfold hBlk hArr iblk1
  rw [View.read_apply]
  show V c main_v0 _ = V c main_v0 _
  congr 1
  funext a
  apply Fin.ext
  match a with
  | ⟨0, _⟩ => show win1_1.index t (0 : Fin 2) * 1024 + 1 * (y 0).val = (k 0).val; rw [e0, hk0]; omega
  | ⟨1, _⟩ => show win1_1.index t (1 : Fin 2) * 64 + 1 * (y 1).val = (k 1).val; rw [e1, hk1]; omega

/-- The bias row every point reads is the whole array. -/
theorem biasBlk_apply (c : Dev nD) (t : Fin cfg1.N) (y : S1x64.Idx) : biasBlk V c t y = biasArr V c y := by
  obtain ⟨-, -, -, -, e0, e1, -⟩ := block_indices t
  unfold biasBlk biasArr iblk1
  rw [View.read_apply]
  show V c main_v1 _ = V c main_v1 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- One term of a tile's partial sum, over the arrays at natural-number coordinates. -/
theorem tile_term (c : Dev nD) (t : Fin cfg1.N) (r : Fin 2048) (kk : Fin 1024) (q : Fin 64) :
    adjBlk V c t (ix2 r kk) * hBlk V c t (ix2 kk q)
      = at2 (adjArr V c) (t.val / 16 * 2048 + r.val) (t.val % 16 * 1024 + kk.val) * at2 (hArr V c) (t.val % 16 * 1024 + kk.val) q.val := by
  have hN : grid1.N = 128 := N_1
  have ht : t.val < 128 := hN ▸ t.isLt
  have hp : t.val / 16 * 2048 + r.val < 16384 := by have := r.isLt; omega
  have hk : t.val % 16 * 1024 + kk.val < 16384 := by have := kk.isLt; omega
  rw [Cert.GcnMath.at2_of_lt (adjArr V c) _ _ hp hk, Cert.GcnMath.at2_of_lt (hArr V c) _ _ hk q.isLt,
    adjBlk_apply V c t (ix2 r kk) (ix2 ⟨_, hp⟩ ⟨_, hk⟩) rfl rfl, hBlk_apply V c t (ix2 kk q) (ix2 ⟨_, hk⟩ ⟨q.val, q.isLt⟩) rfl rfl]
end

section
variable (V : (c : Dev nD) → (b : Ref sig .tc) → Buf (Elt Ideal) ((c : Thread nD τ).loc b))

/-- A reduction step's stored value over the arrays: what it adds onto, plus the tile's partial sum. -/
theorem step_total (c : Dev nD) (t : Fin cfg1.N) (s : Vec Ideal S2048x64 .f32) (r : Fin 2048) (q : Fin 64) :
    k1_pay2 (F := Ideal) (adjBlk V c t) (hBlk V c t) s (ix2 r q)
      = s (ix2 r q) + ∑ kk : Fin 1024, at2 (adjArr V c) (t.val / 16 * 2048 + r.val) (t.val % 16 * 1024 + kk.val) * at2 (hArr V c) (t.val % 16 * 1024 + kk.val) q.val := by
  rw [Payloads.step_apply]
  exact congrArg (s (ix2 r q) + ·) (Finset.sum_congr rfl fun kk _ => tile_term V c t r kk q)

/-- A first tile: from the zero rows, the first tile's partial sum. -/
theorem first_tile (c : Dev nD) (t : Fin cfg1.N) (h0 : t.val % 16 = 0) (r : Fin 2048) (q : Fin 64) :
    k1_pay2 (F := Ideal) (adjBlk V c t) (hBlk V c t) (k1_pay1 (F := Ideal)) (ix2 r q)
      = tileAcc (fun k => at2 (adjArr V c) (t.val / 16 * 2048 + r.val) k * at2 (hArr V c) k q.val) (t.val % 16) := by
  rw [step_total, Payloads.reset_apply, h0, Cert.GcnMath.tileAcc_zero]
  simp only [Nat.zero_mul, Nat.zero_add]

/-- A later tile: onto the running total of the tiles before it, one more tile's partial sum. -/
theorem later_tile (c : Dev nD) (t : Fin cfg1.N) (m : Nat) (hm : t.val % 16 = m + 1) (s : Vec Ideal S2048x64 .f32) (r : Fin 2048) (q : Fin 64)
    (hs : s (ix2 r q) = tileAcc (fun k => at2 (adjArr V c) (t.val / 16 * 2048 + r.val) k * at2 (hArr V c) k q.val) m) :
    k1_pay2 (F := Ideal) (adjBlk V c t) (hBlk V c t) s (ix2 r q)
      = tileAcc (fun k => at2 (adjArr V c) (t.val / 16 * 2048 + r.val) k * at2 (hArr V c) k q.val) (t.val % 16) := by
  rw [step_total, hs, hm, Cert.GcnMath.tileAcc_succ]

/-- THE INVARIANT: after point n the accumulator holds, at (r, q), the running total over the tiles 0 … n mod 16 of
    row (n / 16) · 2048 + r of the adjacency matrix against column q of the projected features. -/
theorem acc_total (c : Dev nD) : ∀ (n : Nat) (hn : n < cfg1.N) (r : Fin 2048) (q : Fin 64),
    (aggAt V c n hn).2 (ix2 r q)
      = tileAcc (fun k => at2 (adjArr V c) (n / 16 * 2048 + r.val) k * at2 (hArr V c) k q.val) (n % 16) := by
  intro n
  induction n using Nat.strong_induction_on with
  | _ n ih =>
    intro hn r q
    by_cases h0 : n % 16 = 0
    · have h1 : ¬ n % 16 = 15 := by omega
      rw [aggAt_first V c ⟨n, hn⟩ h0 h1]
      dsimp only
      refine (congrFun (AggPieces.acc_first_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) accM (Memref.isWhole_whole _) ((firstTile_iff ⟨n, hn⟩).mpr h0) (fun h => h1 ((lastTile_iff ⟨n, hn⟩).mp h)) (adjBlk V c ⟨n, hn⟩) (hBlk V c ⟨n, hn⟩) (biasBlk V c ⟨n, hn⟩)) (ix2 r q)).trans ?_
      exact first_tile V c ⟨n, hn⟩ h0 r q
    · obtain ⟨m, hm⟩ : ∃ m, n % 16 = m + 1 := ⟨n % 16 - 1, by omega⟩
      have hp : n - 1 < cfg1.N := Nat.lt_of_le_of_lt (Nat.sub_le _ _) hn
      have e1 : (n - 1) / 16 = n / 16 := by omega
      have e2 : (n - 1) % 16 = m := by omega
      have hs : (aggAt V c (n - 1) hp).2 (ix2 r q)
          = tileAcc (fun k => at2 (adjArr V c) (n / 16 * 2048 + r.val) k * at2 (hArr V c) k q.val) m := by
        rw [ih (n - 1) (by omega) hp r q, e1, e2]
      by_cases h1 : n % 16 = 15
      · rw [aggAt_last V c ⟨n, hn⟩ h0 h1]
        dsimp only
        refine (congrFun (AggPieces.acc_last_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) accM (Memref.isWhole_whole _) (fun h => h0 ((firstTile_iff ⟨n, hn⟩).mp h)) ((lastTile_iff ⟨n, hn⟩).mpr h1) (adjBlk V c ⟨n, hn⟩) (hBlk V c ⟨n, hn⟩) (biasBlk V c ⟨n, hn⟩) (aggAt V c (n - 1) hp).2) (ix2 r q)).trans ?_
        exact later_tile V c ⟨n, hn⟩ m hm (aggAt V c (n - 1) hp).2 r q hs
      · rw [aggAt_mid V c ⟨n, hn⟩ h0 h1]
        dsimp only
        refine (congrFun (AggPieces.acc_mid_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) accM (Memref.isWhole_whole _) (fun h => h0 ((firstTile_iff ⟨n, hn⟩).mp h)) (fun h => h1 ((lastTile_iff ⟨n, hn⟩).mp h)) (adjBlk V c ⟨n, hn⟩) (hBlk V c ⟨n, hn⟩) (biasBlk V c ⟨n, hn⟩) (aggAt V c (n - 1) hp).2) (ix2 r q)).trans ?_
        exact later_tile V c ⟨n, hn⟩ m hm (aggAt V c (n - 1) hp).2 r q hs
end

/-- A block of 2048 rows that holds, at (r, q), the total of row n · 2048 + r plus the bias at q is block n of the
    array that holds the total of row p plus the bias at every (p, q). -/
theorem block_of_totals (X : S2048x64.Idx → EReal) (A : S16384x16384.Idx → EReal) (H : S16384x64.Idx → EReal)
    (B : S1x64.Idx → EReal) (n : Nat)
    (hX : ∀ (r : Fin 2048) (q : Fin 64), X (ix2 r q) = tileAcc (fun k => at2 A (n * 2048 + r.val) k * at2 H k q.val) 15 + B (ix2 (0 : Fin 1) q))
    (y : S2048x64.Idx) (i : S16384x64.Idx) (hi0 : (i 0).val = n * 2048 + (y 0).val) (hi1 : (i 1).val = (y 1).val) :
    X y = tileAcc (fun k => at2 A (i 0).val k * at2 H k (i 1).val) 15 + B (ix2 (0 : Fin 1) ⟨(i 1).val, ValueIdx.idx2_lt1 i⟩) := by
  obtain ⟨r, q, rfl⟩ : ∃ (r : Fin 2048) (q : Fin 64), y = ix2 r q := ⟨y 0, y 1, ValueIdx.eq_ix2 y⟩
  have h0 : (i 0).val = n * 2048 + r.val := hi0
  have h1 : (i 1).val = q.val := hi1
  have hq : (⟨(i 1).val, ValueIdx.idx2_lt1 i⟩ : Fin 64) = q := Fin.ext h1
  rw [hX, hq, h0, h1]

section
variable (V : (c : Dev nD) → (b : Ref sig .tc) → Buf (Elt Ideal) ((c : Thread nD τ).loc b))

/-- What a last tile leaves in the output block: the total over all sixteen tiles, plus the bias. -/
theorem out_total (c : Dev nD) (t : Fin cfg1.N) (h1 : t.val % 16 = 15) (r : Fin 2048) (q : Fin 64) :
    (aggAt V c t.val t.isLt).1 (ix2 r q)
      = tileAcc (fun k => at2 (adjArr V c) (t.val / 16 * 2048 + r.val) k * at2 (hArr V c) k q.val) 15 + biasArr V c (ix2 (0 : Fin 1) q) := by
  have h0 : ¬ t.val % 16 = 0 := by omega
  have hp : t.val - 1 < cfg1.N := Nat.lt_of_le_of_lt (Nat.sub_le _ _) t.isLt
  have e1 : (t.val - 1) / 16 = t.val / 16 := by omega
  have e2 : (t.val - 1) % 16 = 14 := by omega
  have hs : (aggAt V c (t.val - 1) hp).2 (ix2 r q)
      = tileAcc (fun k => at2 (adjArr V c) (t.val / 16 * 2048 + r.val) k * at2 (hArr V c) k q.val) 14 := by
    rw [acc_total V c (t.val - 1) hp r q, e1, e2]
  have hl := later_tile V c t 14 h1 (aggAt V c (t.val - 1) hp).2 r q hs
  rw [h1] at hl
  rw [aggAt_last V c t h0 h1]
  dsimp only
  refine (congrFun (AggPieces.out_last_eq (F := Ideal) c (grid1.coords t) (ms1_0 t) (hs1_0 t) (ms1_1 t) (hs1_1 t) (ms1_2 t) (hs1_2 t) (ms1_3 t) (hs1_3 t) accM (Memref.isWhole_whole _) (fun h => h0 ((firstTile_iff t).mp h)) ((lastTile_iff t).mpr h1) (adjBlk V c t) (hBlk V c t) (biasBlk V c t) (aggAt V c (t.val - 1) hp).2) (ix2 r q)).trans ?_
  rw [Payloads.bias_apply, hl, biasBlk_apply]

/-- The array the region leaves: at (p, q) the tile-by-tile total of row p against column q, plus the bias at q. -/
abbrev totals (c : Dev nD) : S16384x64.Idx → EReal := fun i =>
  tileAcc (fun k => at2 (V c main_arg1) (i 0).val k * at2 (V c main_v0) k (i 1).val) 15
    + V c main_v1 (ix2 (0 : Fin 1) ⟨(i 1).val, ValueIdx.idx2_lt1 i⟩)

/-- What a last tile writes back is its block of rows of that array. -/
theorem written_eq (c : Dev nD) (t : Fin cfg1.N) (hf : (cfg1.win 3).flush t = true) :
    (dat1 (F := Ideal) V c).flushed 3 t = ((cfg1.win 3).blk t).view.read (Elt Ideal) (totals V c) := by
  have h1 : t.val % 16 = 15 := (flush1_3 t).mp hf
  show (cfg1.win 3).cut (grid1.coords t) ((dat1 (F := Ideal) V c).after 3 t) = _
  rw [after1_3]
  obtain ⟨-, -, -, -, -, -, e0, e1⟩ := block_indices t
  funext j
  show (aggAt V c t.val t.isLt).1 ((cfg1.win 3).xinj (grid1.coords t) j) = totals V c (((cfg1.win 3).blk t).view.emb j)
  refine block_of_totals _ (adjArr V c) (hArr V c) (biasArr V c) (t.val / 16) (out_total V c t h1) _ _ ?_ ?_
  · show win1_3.index t (0 : Fin 2) * 2048 + 1 * (j 0).val = t.val / 16 * 2048 + (j 0).val
    rw [e0]; omega
  · show win1_3.index t (1 : Fin 2) * 64 + 1 * (j 1).val = (j 1).val
    rw [e1]; omega

/-- An index of the array is in point t's block iff each coordinate is in the block's range on its axis. -/
theorem mem_rows (t : Fin cfg1.N) (i : S16384x64.Idx) :
    i ∈ ((cfg1.win 3).blk t).view.set
      ↔ ∀ a : Fin 2, win1_3.index t a * S2048x64.size a ≤ (i a).val ∧ (i a).val < win1_3.index t a * S2048x64.size a + S2048x64.size a := by
  show i ∈ ((View.whole main_v2).slice (win1_3.rect t)).set ↔ _
  rw [View.set_slice_whole, Rect.mem_set_unit]
  exact Iff.rfl

/-- The eight blocks the last tiles write tile the array: row p is in the block of point 16 · (p / 2048) + 15. -/
theorem rows_cover (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : grid1.N = 128 := N_1
  have ht : 16 * ((i 0).val / 2048) + 15 < cfg1.N := by show _ < grid1.N; rw [hN]; omega
  refine ⟨⟨16 * ((i 0).val / 2048) + 15, ht⟩, (flush1_3 _).mpr (by show (16 * ((i 0).val / 2048) + 15) % 16 = 15; omega), ?_⟩
  obtain ⟨-, -, -, -, -, -, e0, e1⟩ := block_indices ⟨16 * ((i 0).val / 2048) + 15, ht⟩
  rw [mem_rows]
  intro a
  match a with
  | ⟨0, _⟩ =>
    show win1_3.index ⟨16 * ((i 0).val / 2048) + 15, ht⟩ (0 : Fin 2) * 2048 ≤ (i 0).val ∧ (i 0).val < win1_3.index ⟨16 * ((i 0).val / 2048) + 15, ht⟩ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win1_3.index ⟨16 * ((i 0).val / 2048) + 15, ht⟩ (1 : Fin 2) * 64 ≤ (i 1).val ∧ (i 1).val < win1_3.index ⟨16 * ((i 0).val / 2048) + 15, ht⟩ (1 : Fin 2) * 64 + 64
    rw [e1]; omega
end

/-- The result array after the region: at row p and feature q the tile-by-tile running total of row p of the adjacency
    matrix against column q of the projected features, plus the bias. -/
theorem agg_array (V : (c : Dev nD) → (b : Ref sig .tc) → Buf (Elt Ideal) ((c : Thread nD τ).loc b)) (c : Dev nD) :
    (dat1 (F := Ideal) V c).arrAt 3 cfg1.N = fun i =>
      Cert.GcnMath.tileAcc (fun k => Cert.GcnMath.at2 (V c main_arg1) (i 0).val k * Cert.GcnMath.at2 (V c main_v0) k (i 1).val) 15
        + V c main_v1 (ValueIdx.ix2 (0 : Fin 1) ⟨(i 1).val, ValueIdx.idx2_lt1 i⟩) :=
  (dat1 (F := Ideal) V c).arrAt_eq_of_cover 3 (totals V c) (written_eq V c) rows_cover

end Cert.KernelIdeal.AggValue

end
-- ==== Proof.GcnReference.lean ====
/-
  The reference program's result, read at an index, is the graph-convolution layer's specification:
  out[p, q] = (Σ_k adj[p, k] · Σ_l x[k, l] · w[l, q]) + b[q].
  Each operation of the reference reads its operands at indices computed from the result's index; those
  indices are the plain coordinate pairs the specification uses, and addition at the ideal instance is
  the extended reals' addition. Both sums stay as sums over their index sets; nothing is evaluated.
-/
import proofs.«114878_j5755256177264_1_alg».proof.Proof.Gen.ReferenceIdeal.Read
import proofs.«114878_j5755256177264_1_alg».proof.Proof.GcnMath
import Idealize.ShloMosaic.Lib.ValueIdx

noncomputable section

open Cert.ReferenceIdeal Cert.ReferenceIdeal.Gen Idealize.ShloMosaic Idealize.ShloMosaic.TcCoe Idealize.SL.Sem Idealize.ShloMosaic.StableHlo
open scoped BigOperators

namespace Cert.GcnReference

open Cert.ReferenceIdeal.Read Cert.GcnMath

/-- The adjacency operand of the outer product is read at (row of the result, k). -/
theorem lidx_v1_eq (i : S16384x64.Idx) (k : Fin 16384) :
    lidx_main_v1 i k = ValueIdx.ix2 (⟨(i 0).val, ValueIdx.idx2_lt0 i⟩ : Fin 16384) k :=
  funext fun a => Fin.ext (by match a with | ⟨0, _⟩ => rfl | ⟨1, _⟩ => rfl)

/-- The projected operand of the outer product is read at (k, column of the result). -/
theorem ridx_v1_eq (i : S16384x64.Idx) (k : Fin 16384) :
    ridx_main_v1 i k = ValueIdx.ix2 k (⟨(i 1).val, ValueIdx.idx2_lt1 i⟩ : Fin 64) :=
  funext fun a => Fin.ext (by match a with | ⟨0, _⟩ => rfl | ⟨1, _⟩ => rfl)

/-- The features operand of the inner product, at the index (k, q), is read at (k, l). -/
theorem lidx_v0_eq (k : Fin 16384) (q l : Fin 64) :
    lidx_main_v0 (ValueIdx.ix2 k q) l = ValueIdx.ix2 k l :=
  funext fun a => Fin.ext (by match a with | ⟨0, _⟩ => rfl | ⟨1, _⟩ => rfl)

/-- The weights operand of the inner product, at the index (k, q), is read at (l, q). -/
theorem ridx_v0_eq (k : Fin 16384) (q l : Fin 64) :
    ridx_main_v0 (ValueIdx.ix2 k q) l = ValueIdx.ix2 l q :=
  funext fun a => Fin.ext (by match a with | ⟨0, _⟩ => rfl | ⟨1, _⟩ => rfl)

/-- The bias, broadcast twice, is read at the column of the result. -/
theorem idx_v2_v3_eq (i : S16384x64.Idx) :
    idx_main_v2 (idx_main_v3 i) = ValueIdx.ix1 (⟨(i 1).val, ValueIdx.idx2_lt1 i⟩ : Fin 64) :=
  funext fun a => Fin.ext (by match a with | ⟨0, _⟩ => rfl)

/-- The reference program's result is the layer's specification. -/
theorem ref_is_gcn (x0 : (⟨Cert.ReferenceIdeal.S16384x64, .f32⟩ : BufTy).Contents (Elt Ideal)) (x1 : (⟨Cert.ReferenceIdeal.S16384x16384, .f32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal)) :
    Cert.ReferenceIdeal.Read.val_main_v4 (F := Ideal) x0 x1 x2 x3 = Cert.GcnMath.gcn x0 x1 x2 x3 := by
  funext i
  rw [val_main_v4_apply, val_main_v1_apply, val_main_v3_apply, val_main_v2_apply, idx_v2_v3_eq, Ideal.addf_def]
  unfold gcn gcnAt
  refine congrArg (· + x3 (ValueIdx.ix1 (⟨(i 1).val, ValueIdx.idx2_lt1 i⟩ : Fin 64))) (Finset.sum_congr rfl fun k _ => ?_)
  rw [lidx_v1_eq, ridx_v1_eq, val_main_v0_apply]
  refine congrArg (x1 (ValueIdx.ix2 (⟨(i 0).val, ValueIdx.idx2_lt0 i⟩ : Fin 16384) k) * ·) (Finset.sum_congr rfl fun l _ => ?_)
  rw [lidx_v0_eq, ridx_v0_eq]

end Cert.GcnReference

end
-- ==== Proof.GcnClaims.lean ====
/-
  The claims. The kernel's program is two regions — `h = x · w` by row blocks, then `out = adj · h + b` by row blocks with
  the sum over neighbours taken in sixteen column tiles onto a running total — and the reference is the two whole
  products and the sum. At the ideal instance a narrowing of a float is the identity and a product into zero rows is a
  plain sum, so the kernel's result is, at row `p` and feature `q`, the tile-by-tile total of `adj[p, ·] · h[·, q]` plus
  `b[q]`, and sixteen tiles' totals added in order from zero are the whole sum (associativity, commutativity and the
  unit of addition on the extended reals; nothing distributes, so no input need be finite): the reference's value.
  Both programs' frames come with their runs; the idealization rewrote nothing.
-/
import proofs.«114878_j5755256177264_1_alg».proof.Defs
import proofs.«114878_j5755256177264_1_alg».proof.Proof.Gen.Pre_finite_inputs
import proofs.«114878_j5755256177264_1_alg».proof.Proof.IdealRun
import proofs.«114878_j5755256177264_1_alg».proof.Proof.BitsRun
import proofs.«114878_j5755256177264_1_alg».proof.Proof.IdealProjValue
import proofs.«114878_j5755256177264_1_alg».proof.Proof.IdealAggValue
import proofs.«114878_j5755256177264_1_alg».proof.Proof.GcnReference
import proofs.«114878_j5755256177264_1_alg».proof.Proof.GcnMath
import proofs.«114878_j5755256177264_1_alg».proof.Proof.Gen.ReferenceIdeal.Run
import proofs.«114878_j5755256177264_1_alg».proof.Proof.Gen.ReferenceIdeal.Read
import Idealize.ShloMosaic.Lib.Pipeline.Value
import Idealize.ShloMosaic.Lib.ValueLayout

noncomputable section

open Idealize.ShloMosaic Idealize.ShloMosaic.TcCoe Idealize.SL.Sem

namespace Cert.Proof.GcnClaims

open Cert.KernelIdeal Cert.KernelIdeal.Gen Cert.KernelIdeal.Hand

section Value
variable (m : (ℓ : Loc nD τ sig) → Buf (Elt Ideal) ℓ) (ρ : Dev nD → PrngReg)

/-- The bias row the aggregation region finds, read at a feature: the launch's bias at that feature. -/
theorem bias_row_apply (c : Dev nD) (q : Fin 64) :
    V2 m ρ c main_v1 (ValueIdx.ix2 (0 : Fin 1) q) = m ((c : Thread nD τ).loc main_arg3) (ValueIdx.ix1 q) := by
  rw [V2_main_v1]
  refine shapeCast_apply _ _ _ (ValueIdx.ix1 q) ?_
  rw [Shape.rowMajor_val_one, Shape.rowMajor_val_two]
  show q.val = 0 * 64 + q.val
  omega

/-- The kernel's result array is the layer's output of the launch's arguments. -/
theorem result_eq (c : Dev nD) :
    (dat1 (V2 m ρ) c).arrAt 3 cfg1.N
      = Cert.GcnMath.gcn (m ((c : Thread nD τ).loc main_arg0)) (m ((c : Thread nD τ).loc main_arg1)) (m ((c : Thread nD τ).loc main_arg2)) (m ((c : Thread nD τ).loc main_arg3)) := by
  rw [Cert.KernelIdeal.AggValue.agg_array (V2 m ρ) c]
  funext i
  rw [V2_main_arg1, V2_main_v0, Cert.KernelIdeal.ProjValue.proj_array (V0 m ρ) c, V0_main_arg0, V0_main_arg2, bias_row_apply]
  exact Cert.GcnMath.gcnAt_eq_tiles _ _ _ _ ⟨(i 0).val, ValueIdx.idx2_lt0 i⟩ ⟨(i 1).val, ValueIdx.idx2_lt1 i⟩

end Value

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.GcnMath.gcn (m ((c : Thread nD τ).loc main_arg0)) (m ((c : Thread nD τ).loc main_arg1)) (m ((c : Thread nD τ).loc main_arg2)) (m ((c : Thread nD τ).loc main_arg3)), ?_, ?_⟩
  · exact (θ_run Cert.KernelIdeal.defs _ _).mono (fun _ h c => ⟨(h c).1.trans (result_eq m ρ c), (h c).2⟩) (run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.GcnReference.ref_is_gcn, (hagree c).1, (hagree c).2.1, (hagree c).2.2.1, (hagree c).2.2.2]

end Cert.Proof.GcnClaims

end
-- ==== Proof.lean ====
/-
  A graph-convolution layer, `out = adj · (x · w) + b`, as a two-region TPU program against its jnp reference, equal over
  the extended reals. The kernel projects the node features by row blocks (`h = x · w`), then aggregates by row blocks,
  summing over the neighbours in sixteen column tiles onto a running total kept between grid points, and adds the bias
  on the last tile. The reference takes the two products whole. At the ideal instance both are
  `(Σ_k adj[p, k] · Σ_l x[k, l] · w[l, q]) + b[q]`: the tiles' totals added in order from zero are the whole sum.
  The frames of the two kernel programs come from one run of @main as its three items; the reference's from its run.
-/
import proofs.«114878_j5755256177264_1_alg».proof.Defs
import proofs.«114878_j5755256177264_1_alg».proof.Proof.Gen.Kernel
import proofs.«114878_j5755256177264_1_alg».proof.Proof.Gen.KernelIdeal
import proofs.«114878_j5755256177264_1_alg».proof.Proof.Gen.ReferenceIdeal
import proofs.«114878_j5755256177264_1_alg».proof.Proof.Gen.ReferenceIdeal.Run
import proofs.«114878_j5755256177264_1_alg».proof.Proof.Gen.ReferenceIdeal.Read
import proofs.«114878_j5755256177264_1_alg».proof.Proof.Gen.Pre_finite_inputs
import proofs.«114878_j5755256177264_1_alg».proof.Proof.GcnClaims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
